-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  main_v3
-- ==== Kernel.lean ====
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1024x1 : Shape := ⟨2, ![1024, 1]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S2x16x2048x64, .f32⟩
  | .hbm, ⟨1, _⟩ => ⟨S32x2048x64, .f32⟩
  | .hbm, ⟨2, _⟩ => ⟨S32x2048x64, .bf16⟩
  | .hbm, ⟨3, _⟩ => ⟨S32x2048x64, .f32⟩
  | .hbm, ⟨4, _⟩ => ⟨S2x16x2048x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x64, .f32⟩
  | .local _ .vmem, ⟨5, _⟩ => ⟨S1x1024x64, .f32⟩
  | .local _ .vmem, ⟨6, _⟩ => ⟨S1024x1, .f32⟩
  | .local _ .vmem, ⟨7, _⟩ => ⟨S1024x1, .f32⟩
  | .local _ .vmem, ⟨8, _⟩ => ⟨S1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 2, 2], ![false, false, false]⟩

def k0_cond2 (i : grid0.Coords) : BitVec 1 :=
  let arg2 : BitVec 32 := BitVec.ofNat 32 (i 2).val
  let c1_i32 : BitVec 32 := 1#32
  let v38 : BitVec 1 := Scalar.cmpi .eq arg2 c1_i32
  let v39 : BitVec 32 := Scalar.extui v38
  let c0_i32_21 : BitVec 32 := 0#32
  let v40 : BitVec 1 := Scalar.cmpi .ne v39 c0_i32_21
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S2x16x2048x64_S32x2048x64 : S2x16x2048x64.ShapeCasts S32x2048x64
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .bf16 = 32 ∨ (Rect.block (s := S32x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S32x2048x64.size a
  hwx0_1 : ∀ i : grid0.Coords, EltTy.bits .bf16 = 32 ∨ (Rect.block (s := S32x2048x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x2048x64.size a
  hwx0_2 : ∀ i : grid0.Coords, EltTy.bits .f32 = 32 ∨ (Rect.block (s := S32x2048x64) S1x1024x64.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v1) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x2048, .f32⟩
  | .hbm, ⟨2, _⟩ => ⟨S_, .f32⟩
  | .hbm, ⟨3, _⟩ => ⟨S2x16x2048, .f32⟩
  | .hbm, ⟨4, _⟩ => ⟨S_, .f32⟩
  | .hbm, ⟨5, _⟩ => ⟨S2x16x2048, .f32⟩
  | .hbm, ⟨6, _⟩ => ⟨S2x16x2048, .f32⟩
  | .hbm, ⟨7, _⟩ => ⟨S2x16x2048x1, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S2x16x2048x1, .f32⟩
  | .hbm, ⟨14, _⟩ => ⟨S2x16x2048x2048, .f32⟩
  | .hbm, ⟨15, _⟩ => ⟨S2x16x2048x2048, .f32⟩
  | .hbm, ⟨16, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BitsFrame.Kit.lean ====
/-
  What the frame proof of the attention kernel is stated over: the contents of the buffers when the kernel region is
  entered (the input reshaped to 32 heads and re-typed), each window's block at a grid point, the two branch conditions
  of the body decided over the grid (the third grid coordinate is 0 at the even points and 1 at the odd ones), where
  the output window is idle, the staging and scratch buffers as the pipeline passes them, and the fact that an input
  window's staging buffer holds its block at every point, fetched there or not.
-/
import proofs.«430976_j25494925869080_3_alg».proof.Proof.Gen.Kernel.Launch
import proofs.«430976_j25494925869080_3_alg».proof.Proof.Gen.Kernel.Skeleton
import proofs.«430976_j25494925869080_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents and the windows' blocks -/

/-- Core `c`'s buffer contents when the region is entered: after the two host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, fetched there or not, for any proof data whose
    array is the entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the key/value window. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the grid -/

/-- "This is the row block's first key/value block": the third grid coordinate is 0. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the row block's last key/value block": the third grid coordinate is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At a first block the body stores nothing into the output window, and the pipeline does not write it back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a last block the body stores the output window's whole block. -/
theorem liveAt0_2_B : ∀ t : Fin cfg0.N, ¬cond0_0 (grid0.coords t) → cond0_1 (grid0.coords t) → cfg0.idle 2 (grid0.coords t) = false := by decide +kernel

/-! ## The staging and scratch buffers -/

/-- One staging buffer of the output window, through which its contents are stated. -/
abbrev VO0_2 : View sig .tc .vmem S1x1024x64 .f32 := (Memref.whole cc0_stg2_0 : Memref sig .tc .vmem S1x1024x64 .f32).view
/-- Each window's current staging buffer at point `t`, as the pipeline passes it, and its wholeness. -/
abbrev ms0_0 (t : Fin cfg0.N) : Memref sig .tc .vmem S1x1024x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x64 .f32 := win0_2.stage (cfg0.slots t 2)
abbrev hs0_2 (t : Fin cfg0.N) : (ms0_2 t).IsWhole := hstage0_2 ((cfg0.slots t 2).cast nbuf0_2)
/-- The three scratch buffers: the running maximum, the running sum of weights, the running weighted sum. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x64 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x64 .f32 := scM0_2.view

/-- What the launch hands the region beside the windows: the three scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.BitsFrame.RunA.lean ====
/-
  The kernel body at a row block's FIRST key/value block (third grid coordinate 0): the three scratch buffers are reset
  (running maximum `-∞`, running sums `0`), the block of scores is folded into them, and nothing is stored into the
  output window. Run on whole buffers, the body ends with each scratch buffer overwritten by the pieces found here, the
  inputs and the output window's buffer untouched.
-/
import proofs.«430976_j25494925869080_3_alg».proof.Proof.BitsFrame.Kit

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch buffers (last first) at a first block, with the run: on whole
    buffers — the inputs at their contents, the output window's at contents handed back untouched, the scratch buffers
    at anything — the body runs to the continuation holding the inputs and the output buffer as they were and each
    scratch buffer with its pieces written. -/
noncomputable def kernelRun0_A (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i)
    (x0 : Vec F S1x1024x64 .bf16) (x1 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi2 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xi2 E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%d6, %f6, %hf6, HS0⟩, ⟨%d7, %f7, %hf7, HS1⟩, ⟨%d8, %f8, %hf8, HS2⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.Kernel.Hand

end
-- ==== Proof.BitsFrame.RunB.lean ====
/-
  The kernel body at a row block's LAST key/value block (third grid coordinate 1): nothing is reset, the block of scores is
  folded into the three scratch buffers as the point before left them, and the weighted sum divided by the sum of weights
  is stored into the output window's whole block.
-/
import proofs.«430976_j25494925869080_3_alg».proof.Proof.BitsFrame.RunA

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and the three scratch buffers (last first) at a last
    block, with the run: on whole buffers — the inputs at their contents, the output window's at anything, the scratch
    buffers at the contents `xs·` the point before left — the body runs to the continuation holding the inputs as they
    were and the output buffer and each scratch buffer with its pieces written. -/
noncomputable def kernelRun0_B (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1x1024x64 .bf16) (x1 : Vec F S1x1024x64 .bf16) (xs0 : Vec F S1024x1 .f32) (xs1 : Vec F S1024x1 .f32) (xs2 : Vec F S1024x64 .f32) :
    Σ' (L2 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%d2, %f2, %hf2, H2⟩, ⟨%f6, %hf6, HS0⟩, ⟨%f7, %hf7, HS1⟩, ⟨%f8, %hf8, HS2⟩, Hk⟩
    obtain rfl := harg3.eq_unread hf0; obtain rfl := harg4.eq_unread hf1
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.Kernel.Hand

end
-- ==== Proof.BitsFrame.Data.lean ====
/-
  What the buffers hold point by point, and the proof data of the pipeline. At an even point (a row block's first key/value
  block) the body resets the three scratch buffers and folds the block in; at an odd point it folds the block into what the
  point before left and stores the output block. `outsAt0` names, by recursion on the point, what the output window's
  buffer and the three scratch buffers hold after each point; the invariant carries the scratch buffers at those contents
  from one point to the next; the query and key/value windows read ONE array, so each holds half of it.
-/
import proofs.«430976_j25494925869080_3_alg».proof.Proof.BitsFrame.RunB

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as pieces read back -/

/-- At a first block the pieces stored into scratch buffer 0 cover it. -/
theorem scover0_A_0 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) (y : S1024x1.Idx) :
    ∃ pc ∈ (kernelRun0_A c i arg3 harg3 arg4 harg4 arg5 harg5 arg6 harg6 arg7 harg7 arg8 harg8 hc0 hc1 x0 x1).1, y ∈ pc.1.set :=
  View.cover_of_tiledL (kernelRun0_A c i arg3 harg3 arg4 harg4 arg5 harg5 arg6 harg6 arg7 harg7 arg8 harg8 hc0 hc1 x0 x1).1 S1024x1.size (by sl_kernel_rfl) y

/-- What a first block leaves in scratch buffer 0: its pieces read back. -/
def sout0_A_0 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) : Vec F S1024x1 .f32 :=
  VS0_0.read (Elt F) (VS0_0.writes (Elt F) VS0_0.junk (kernelRun0_A c i arg3 harg3 arg4 harg4 arg5 harg5 arg6 harg6 arg7 harg7 arg8 harg8 hc0 hc1 x0 x1).1)

/-- At a first block the pieces stored into scratch buffer 1 cover it. -/
theorem scover0_A_1 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) (y : S1024x1.Idx) :
    ∃ pc ∈ (kernelRun0_A c i arg3 harg3 arg4 harg4 arg5 harg5 arg6 harg6 arg7 harg7 arg8 harg8 hc0 hc1 x0 x1).2.1, y ∈ pc.1.set :=
  View.cover_of_tiledL (kernelRun0_A c i arg3 harg3 arg4 harg4 arg5 harg5 arg6 harg6 arg7 harg7 arg8 harg8 hc0 hc1 x0 x1).2.1 S1024x1.size (by sl_kernel_rfl) y

/-- What a first block leaves in scratch buffer 1: its pieces read back. -/
def sout0_A_1 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) : Vec F S1024x1 .f32 :=
  VS0_1.read (Elt F) (VS0_1.writes (Elt F) VS0_1.junk (kernelRun0_A c i arg3 harg3 arg4 harg4 arg5 harg5 arg6 harg6 arg7 harg7 arg8 harg8 hc0 hc1 x0 x1).2.1)

/-- At a first block the pieces stored into scratch buffer 2 cover it. -/
theorem scover0_A_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) (y : S1024x64.Idx) :
    ∃ pc ∈ (kernelRun0_A c i arg3 harg3 arg4 harg4 arg5 harg5 arg6 harg6 arg7 harg7 arg8 harg8 hc0 hc1 x0 x1).2.2.1, y ∈ pc.1.set :=
  View.cover_of_tiledL (kernelRun0_A c i arg3 harg3 arg4 harg4 arg5 harg5 arg6 harg6 arg7 harg7 arg8 harg8 hc0 hc1 x0 x1).2.2.1 S1024x64.size (by sl_kernel_rfl) y

/-- What a first block leaves in scratch buffer 2: its pieces read back. -/
def sout0_A_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) : Vec F S1024x64 .f32 :=
  VS0_2.read (Elt F) (VS0_2.writes (Elt F) VS0_2.junk (kernelRun0_A c i arg3 harg3 arg4 harg4 arg5 harg5 arg6 harg6 arg7 harg7 arg8 harg8 hc0 hc1 x0 x1).2.2.1)

/-- At a last block the one piece stored into the output window's buffer covers it. -/
theorem cover0_B_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) (y : S1x1024x64.Idx) :
    ∃ pc ∈ (kernelRun0_B c i arg3 harg3 arg4 harg4 arg5 harg5 arg6 harg6 arg7 harg7 arg8 harg8 hc0 hc1 x0 x1 xs0 xs1 xs2).1, y ∈ pc.1.set :=
  View.cover_of_tiledL (kernelRun0_B c i arg3 harg3 arg4 harg4 arg5 harg5 arg6 harg6 arg7 harg7 arg8 harg8 hc0 hc1 x0 x1 xs0 xs1 xs2).1 S1x1024x64.size (by sl_kernel_rfl) y

/-- What a last block leaves in the output window's buffer: its piece read back. -/
def out0_B_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) : Vec F S1x1024x64 .f32 :=
  VO0_2.read (Elt F) (VO0_2.writes (Elt F) VO0_2.junk (kernelRun0_B c i arg3 harg3 arg4 harg4 arg5 harg5 arg6 harg6 arg7 harg7 arg8 harg8 hc0 hc1 x0 x1 xs0 xs1 xs2).1)

/-- At a last block the piece stored into scratch buffer 0 covers it. -/
theorem scover0_B_0 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) (y : S1024x1.Idx) :
    ∃ pc ∈ (kernelRun0_B c i arg3 harg3 arg4 harg4 arg5 harg5 arg6 harg6 arg7 harg7 arg8 harg8 hc0 hc1 x0 x1 xs0 xs1 xs2).2.1, y ∈ pc.1.set :=
  View.cover_of_tiledL (kernelRun0_B c i arg3 harg3 arg4 harg4 arg5 harg5 arg6 harg6 arg7 harg7 arg8 harg8 hc0 hc1 x0 x1 xs0 xs1 xs2).2.1 S1024x1.size (by sl_kernel_rfl) y

/-- What a last block leaves in scratch buffer 0: its piece read back. -/
def sout0_B_0 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) : Vec F S1024x1 .f32 :=
  VS0_0.read (Elt F) (VS0_0.writes (Elt F) VS0_0.junk (kernelRun0_B c i arg3 harg3 arg4 harg4 arg5 harg5 arg6 harg6 arg7 harg7 arg8 harg8 hc0 hc1 x0 x1 xs0 xs1 xs2).2.1)

/-- At a last block the piece stored into scratch buffer 1 covers it. -/
theorem scover0_B_1 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) (y : S1024x1.Idx) :
    ∃ pc ∈ (kernelRun0_B c i arg3 harg3 arg4 harg4 arg5 harg5 arg6 harg6 arg7 harg7 arg8 harg8 hc0 hc1 x0 x1 xs0 xs1 xs2).2.2.1, y ∈ pc.1.set :=
  View.cover_of_tiledL (kernelRun0_B c i arg3 harg3 arg4 harg4 arg5 harg5 arg6 harg6 arg7 harg7 arg8 harg8 hc0 hc1 x0 x1 xs0 xs1 xs2).2.2.1 S1024x1.size (by sl_kernel_rfl) y

/-- What a last block leaves in scratch buffer 1: its piece read back. -/
def sout0_B_1 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) : Vec F S1024x1 .f32 :=
  VS0_1.read (Elt F) (VS0_1.writes (Elt F) VS0_1.junk (kernelRun0_B c i arg3 harg3 arg4 harg4 arg5 harg5 arg6 harg6 arg7 harg7 arg8 harg8 hc0 hc1 x0 x1 xs0 xs1 xs2).2.2.1)

/-- At a last block the piece stored into scratch buffer 2 covers it. -/
theorem scover0_B_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) (y : S1024x64.Idx) :
    ∃ pc ∈ (kernelRun0_B c i arg3 harg3 arg4 harg4 arg5 harg5 arg6 harg6 arg7 harg7 arg8 harg8 hc0 hc1 x0 x1 xs0 xs1 xs2).2.2.2.1, y ∈ pc.1.set :=
  View.cover_of_tiledL (kernelRun0_B c i arg3 harg3 arg4 harg4 arg5 harg5 arg6 harg6 arg7 harg7 arg8 harg8 hc0 hc1 x0 x1 xs0 xs1 xs2).2.2.2.1 S1024x64.size (by sl_kernel_rfl) y

/-- What a last block leaves in scratch buffer 2: its piece read back. -/
def sout0_B_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) : Vec F S1024x64 .f32 :=
  VS0_2.read (Elt F) (VS0_2.writes (Elt F) VS0_2.junk (kernelRun0_B c i arg3 harg3 arg4 harg4 arg5 harg5 arg6 harg6 arg7 harg7 arg8 harg8 hc0 hc1 x0 x1 xs0 xs1 xs2).2.2.2.1)

/-! ## What the buffers hold after each point -/

/-- The contents after a point: the output window's buffer, then the three scratch buffers. -/
abbrev Outs (F : FTy → Type) [FloatOps F] : Type := Vec F S1x1024x64 .f32 × Vec F S1024x1 .f32 × Vec F S1024x1 .f32 × Vec F S1024x64 .f32

/-- After an even point: the scratch buffers at what a first block leaves; the output window's buffer is not stored into
    there (a placeholder nothing consults: the window is idle and not written back at these points). -/
def ptA (c : Dev nD) (t : Fin cfg0.N) (h : t.val % 2 = 0) : Outs F :=
  (VO0_2.read (Elt F) VO0_2.junk,
   sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => by have := (hcond0_1 t).mp h'; omega) (iblk m c 0 t) (iblk m c 1 t),
   sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => by have := (hcond0_1 t).mp h'; omega) (iblk m c 0 t) (iblk m c 1 t),
   sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => by have := (hcond0_1 t).mp h'; omega) (iblk m c 0 t) (iblk m c 1 t))

/-- After an odd point, over what the point before left in the scratch buffers. -/
def ptB (c : Dev nD) (t : Fin cfg0.N) (h : t.val % 2 = 1) (p0 : Vec F S1024x1 .f32) (p1 : Vec F S1024x1 .f32) (p2 : Vec F S1024x64 .f32) : Outs F :=
  (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h) (iblk m c 0 t) (iblk m c 1 t) p0 p1 p2,
   sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h) (iblk m c 0 t) (iblk m c 1 t) p0 p1 p2,
   sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h) (iblk m c 0 t) (iblk m c 1 t) p0 p1 p2,
   sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h) (iblk m c 0 t) (iblk m c 1 t) p0 p1 p2)

/-- THE RECURSION over the points: an even point starts afresh, an odd one continues from the point before. -/
def outsAt0 (c : Dev nD) : (n : ℕ) → n < cfg0.N → Outs F
  | 0, hn => ptA m c ⟨0, hn⟩ rfl
  | n + 1, hn =>
    if h : (n + 1) % 2 = 0 then ptA m c ⟨n + 1, hn⟩ h
    else ptB m c ⟨n + 1, hn⟩ (by show (n + 1) % 2 = 1; omega) (outsAt0 c n (Nat.lt_of_succ_lt hn)).2.1 (outsAt0 c n (Nat.lt_of_succ_lt hn)).2.2.1 (outsAt0 c n (Nat.lt_of_succ_lt hn)).2.2.2

theorem outsAt0_A (c : Dev nD) (t : Fin cfg0.N) (h : t.val % 2 = 0) : outsAt0 m c t.val t.isLt = ptA m c t h := by
  obtain ⟨n, hn⟩ := t
  cases n with
  | zero => rfl
  | succ n => exact dif_pos h

theorem outsAt0_B (c : Dev nD) (t : Fin cfg0.N) (h : t.val % 2 = 1) :
    outsAt0 m c t.val t.isLt = ptB m c t h (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact absurd (show (0 : ℕ) % 2 = 1 from h) (by decide)
  | succ n => exact dif_neg (by (try dsimp only at h); omega)

/-- The region's invariant before position `n`: before the first point whatever the launch hands over (the scratch buffers
    at anything); afterwards the three scratch buffers at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body each input's buffer at its block and
    the output's at `outsAt0`; the invariant `PhiS`; nothing owed; the two input windows, which read one array, each
    at half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d

end Cert.Kernel.Hand

end
-- ==== Proof.BitsFrame.Obligation.lean ====
/-
  The body obligation of the pipeline: at every grid point, from the invariant and each window's staging buffer at what it
  then holds, the kernel body runs to the invariant at the next point and each buffer at what the proof data says it
  leaves. An even point is a first block (the scratch buffers are taken at anything — what the launch hands over at the very
  first point, the previous row block's leftovers later — and given back at the first block's contents; the output window's
  buffer is handed back untouched); an odd point is a last block (the scratch buffers are taken at what the point before
  left, and the output block is stored).
-/
import proofs.«430976_j25494925869080_3_alg».proof.Proof.BitsFrame.Data

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the parity of the point says which case it is in; the
    invariant hands the scratch buffers over and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 128 := lt_of_lt_of_eq t.isLt (show cfg0.N = 128 from N_0)
  by_cases h0 : t.val % 2 = 0
  · rw [Dat.leavesExact_idle (dats m 0 c) 2 t (idleAt0_2_A t ((hcond0_0 t).mpr h0) (fun h' => by have := (hcond0_1 t).mp h'; omega)) (noFlush0_2_A t ((hcond0_0 t).mpr h0) (fun h' => by have := (hcond0_1 t).mp h'; omega))]
    rw [outsAt0_A m c t h0]
    unfold ptA sout0_A_0 sout0_A_1 sout0_A_2; (try dsimp only)
    have hpre : (dats m 0 c).Φ t.castSucc ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
      by_cases hz : t.val = 0
      · rw [PhiS_castSucc m c t, PhiS_zero m c _ _ hz, PhiA0_eq]
      · rw [PhiS_castSucc m c t, PhiS_pos m c _ _ hz]
        iintro ⟨⟨HS0, HS1, HS2⟩, Hg⟩
        isplitr [Hg]
        · isplitl [HS0]; · iexists _; iexact HS0
          isplitl [HS1]; · iexists _; iexact HS1
          iexists _; iexact HS2
        iexact Hg
    iintro ⟨HΦ, Ho, ⟨%d0, H0⟩, ⟨%d1, H1⟩, ⟨%d2, H2⟩⟩
    ihave HΦ' := hpre $$ HΦ
    icases HΦ' with ⟨⟨HS0, HS1, HS2⟩, Hg⟩
    iapply ((kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h' => by have := (hcond0_1 t).mp h'; omega) (iblk m c 0 t) (iblk m c 1 t)).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, ⟨%es0, HS0⟩, ⟨%es1, HS1⟩, ⟨%es2, HS2⟩⟩
    isplitl [HS0 HS1 HS2 Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        unfold owns; iexists _; isplitr
        swap; · iexact HS2
        ipureintro; exact View.read_writes_of_cover _ _ _ _ _ (scover0_A_2 c _ _ _ _ _ _ _ _ _ _ _ _ _ _ _ _ _)
      iexact Hg
    isplitl [Ho]; · iexact Ho
    isplitl [H0]; · iexact H0
    isplitl [H1]; · iexact H1
    iexists _; iexact H2
  · have h1 : t.val % 2 = 1 := by omega
    have hz : t.val ≠ 0 := by omega
    rw [show (dats m 0 c).leavesExact 2 t = owns (c : Thread nD τ) (ms0_2 t) fullShare ((dats m 0 c).after 2 t) from by
      unfold Dat.leavesExact; rw [liveAt0_2_B t (fun h' => by have := (hcond0_0 t).mp h'; omega) ((hcond0_1 t).mpr h1)], after0_2]
    rw [outsAt0_B m c t h1]
    unfold ptB out0_B_2 sout0_B_0 sout0_B_1 sout0_B_2; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩⟩
    iapply ((kernelRun0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h1) (iblk m c 0 t) (iblk m c 1 t) _ _ _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%es2, HS2⟩⟩
    isplitl [HS0 HS1 HS2 Hg]
    · isplitr [Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch buffers' named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

end Cert.Kernel.Hand

end
-- ==== Proof.BitsFrame.Tail.lean ====
/-
  The buffers after the kernel region, as a valuation: the output array at what the pipeline's write-backs left
  (`arrAt 2 N`), every other buffer as the region found it. The reshape after the region reads this.
-/
import proofs.«430976_j25494925869080_3_alg».proof.Proof.BitsFrame.Data

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, as a valuation. -/
abbrev W0 (c : Dev nD) : Valuation τ sig (Elt F) := fun b => m (c, b)

/-- The contents after the region: the output array at what the write-backs left, every other buffer as the region found it. -/
def W2 (c : Dev nD) : Valuation τ sig (Elt F) := fun b =>
  if h : Proc.devRef .tc main_v2 = b then cast (congrArg (fun b' : DevRef τ sig => b'.ty.Contents (Elt F)) h) ((dats m 0 c).arrAt 2 cfg0.N)
  else V0 m c b

theorem W2_v2 (c : Dev nD) : W2 m c (Proc.devRef .tc main_v2) = (dats m 0 c).arrAt 2 cfg0.N := by
  unfold W2; rw [dif_pos rfl]; rfl

theorem W2_v3 (c : Dev nD) : W2 m c (Proc.devRef .tc main_v3) = V0 m c (Proc.devRef .tc main_v3) := by
  unfold W2; rw [dif_neg (by decide)]

end Cert.Kernel.Hand

end
-- ==== Proof.BitsFrame.Launch.lean ====
/-
  The launch: @main as three segments — the two host operations before the kernel region (the reshape to 32 heads and the
  change of format), the region, and the reshape after it — composed by the library's rule for a list of segments. The
  region's query and key/value windows read ONE array: at entry its full share is split in two halves, one per window; the
  output array goes in whole. After the region the output array holds what the write-backs left (`arrAt 2 N`), and the
  last host operation reshapes it into the result; the argument array is never written.
-/
import proofs.«430976_j25494925869080_3_alg».proof.Proof.BitsFrame.Obligation
import proofs.«430976_j25494925869080_3_alg».proof.Proof.BitsFrame.Tail
import Idealize.ShloMosaic.Lib.Pipeline.Regions

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host segments -/

/-- No core owes another anything: no level is assigned. -/
abbrev L : GSem nD τ sig → Finset Unit := fun _ => ∅
abbrev lv : GSem nD τ sig → Unit → ℕ := fun _ _ => 0
abbrev 𝒱₀ : Variants := Variants.none
/-- No pipeline has a prefetched table. -/
abbrev adm : (p : Fin 1) → (pcfgs (F := F) p).Adm := fun p => (cfgs p).toPCfg_adm

/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The two operations before the region, over every unscoped buffer from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The two buffers the reshape after the region touches. -/
def S2 : Finset (DevRef τ sig) := {Proc.devRef .tc main_v2, Proc.devRef .tc main_v3}

/-- What rides beside the reshape after the region: the argument array as the region found it, and `R`. -/
abbrev R2 (c : Dev nD) : sProp 𝕄 := iprop((((c : Thread nD τ).loc main_arg0) ↦{fullShare} V m c main_arg0) ∗ R c)

/-- The reshape after the region, over the two buffers it touches. -/
def seg1 : Pipeline.HostSeg (Name := ℕ) (U := UR sig nD τ) (pcfgs (F := F)) defs₀ 𝒱₀ L lv :=
  Pipeline.HostSeg.ofOps _ _ _ _ _ S2 hostOps1
    (by intro op h; simp only [List.mem_cons, List.mem_nil_iff, or_false] at h; subst h; unfold S2; exact Finset.Subset.refl _)
    (fun op h => (List.forall_iff_forall_mem.mp hostOps1_fresh) op h) (W2 m) (R2 m)

/-! ## The region's arrays: one array behind two windows -/

/-- The buffers behind the windows' arrays, listed: the re-typed input and the output. -/
theorem arrBufs0_eq (c : Dev nD) (Vv : (b : Ref sig .tc) → Buf (Elt F) ((c : Thread nD τ).loc b)) :
    (Pipeline.arrBufs spec0 c Vv : sProp 𝕄)
      = iprop((((c : Thread nD τ).loc main_v1) ↦{fullShare} Vv main_v1) ∗ (((c : Thread nD τ).loc main_v2) ↦{fullShare} Vv main_v2)) := by
  unfold Pipeline.arrBufs; exact bigSep_eq_bigSepL_of_eq [main_v1, main_v2] (by decide) (by decide) _

/-- The proof data's arrays, window by window: the shared array at its two halves, the output array whole. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W0]
  rw [(arr_whole0 0).set_eq_univ, (arr_whole0 2).set_eq_univ]
  rfl

/-- ENTRY: a core's unscoped buffers at the entry contents are the pipeline's arrays — the shared array split in halves —
    and the buffers the region bypasses. -/
theorem entry_split (c : Dev nD) :
    (unscopedBufs c (V m c) : sProp 𝕄) ⊢ iprop((dats m 0 c).arrays ((dats m 0 c).arrAt · 0) ∗ Pipeline.unscopedRest spec0 c (V m c)) := by
  rw [Pipeline.unscopedBufs_split₀ cfgs 0 winFacts₀0.arr_unscoped c (V m c), arrBufs0_eq, arrays0_eq]
  iintro ⟨⟨H1, H2⟩, Hr⟩
  ihave H1' := (pointsTo_share (PosShare.mem_left_op_right fullShare)).1 $$ H1
  icases H1' with ⟨Hl, Hrr⟩
  isplitr [Hr]
  · isplitl [Hl]; · iexact Hl
    isplitl [Hrr]; · iexact Hrr
    iexact H2
  iexact Hr

/-- The two buffers of the last reshape, one by one. -/
theorem held_S2 (c : Dev nD) (W : Valuation τ sig (Elt F)) :
    (StableHlo.held (c : Thread nD τ) S2 W : sProp 𝕄)
      = iprop((((c : Thread nD τ).1, Proc.devRef .tc main_v2) ↦{fullShare} W (Proc.devRef .tc main_v2))
          ∗ (((c : Thread nD τ).1, Proc.devRef .tc main_v3) ↦{fullShare} W (Proc.devRef .tc main_v3))) := by
  unfold StableHlo.held S2
  exact bigSep_eq_bigSepL_of_eq [Proc.devRef .tc main_v2, Proc.devRef .tc main_v3] (by decide) (by decide) _

/-- The argument array reaches the region, and the end, as launched: no host operation writes it. -/
theorem V_main_arg0 (c : Dev nD) : V m c main_arg0 = m ((c : Thread nD τ).loc main_arg0) :=
  StableHlo.after_of_forall_not_mem (b := Proc.devRef .tc main_arg0) hostOps0 (fun b => m (c, b)) (List.forall_iff_forall_mem.mp (by
    simp only [hostOps0, List.Forall, StableHlo.unary_writes, StableHlo.reshape_writes, Finset.mem_singleton]
    repeat' apply And.intro
    all_goals exact StableHlo.devRef_ne_of_ne (by decide)))

/-! ## The region as a segment -/

set_option backward.isDefEq.respectTransparency.types false in
/-- THE REGION: entered from every unscoped buffer at the entry contents — the shared array split between the two input
    windows, the output array whole, the other buffers bypassing —, the generator register and the scratch buffers into the
    invariant and out; left with the output array at what the write-backs left and the argument array as found. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) S2 (W2 m c) ∗ R2 m c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin m c)
    unfold Pipeline.ΦA
    iintro ⟨Hp, -, Hr⟩
    isplitl [Hr]; · iexact Hr
    iexact Hp
  hout c := by
    rw [Pipeline.ownSems0_none]
    refine (hout m c).trans ?_
    unfold Pipeline.ΦA
    iintro ⟨Hr, Hp⟩
    isplitl [Hp]; · iexact Hp
    isplitr; · iempintro
    iexact Hr
  hexit c := by
    rw [arrays0_eq, unscopedRest0_eq, held_S2, W2_v2, W2_v3]
    iintro ⟨⟨-, -, H2⟩, HO, HY, ⟨Ha0, -, H3⟩⟩
    imodintro
    isplitl [H2 H3]
    · isplitl [H2]; · iexact H2
      iexact H3
    isplitl [Ha0]; · iexact Ha0
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (dats m) () defs₀ 𝒱₀ L lv) :=
  [.host (seg0 m), .region (reg0 m), .host (seg1 m)]

/-- The last thread state without what the core owes: the two buffers of the last reshape after it, the argument array as
    the region found it, the generator register at some state. -/
abbrev Tₙ (c : Dev nD) : sProp 𝕄 :=
  iprop(StableHlo.held (c : Thread nD τ) S2 (StableHlo.after hostOps1 (W2 m c))
    ∗ (((c : Thread nD τ).loc main_arg0) ↦{fullShare} V m c main_arg0) ∗ (∃ r, prngReg c r))

set_option backward.isDefEq.respectTransparency.types false in
/-- THE RUN: at the compiled mesh, from any memory with zero counters, every weakly fair execution of @main terminates,
    nothing faulting, and every final state has the result buffer at the reshape of what the region's write-backs left in the
    output array, and the argument array as launched. -/
theorem run_main : θ_run defs (onTc (τ := τ) (main (F := F))) ⟨m, fun _ => 0, ρ⟩ (fun r => ∀ c : Dev nD,
      r.2.mem ((c.tc : Thread nD τ).loc main_v3) = StableHlo.after hostOps1 (W2 m c) (Proc.devRef .tc main_v3)
      ∧ r.2.mem ((c.tc : Thread nD τ).loc main_arg0) = m ((c.tc : Thread nD τ).loc main_arg0)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) S2 (StableHlo.after hostOps1 (W2 m c)) ∗ R2 m c) ⊢ iprop(Tₙ m c ∗ ∃ W, owes (c : Thread nD τ) (0 : CellTallies nD τ sig Unit) W)
      iintro ⟨Hh, Ha0, Hp, HO⟩
      isplitr [HO]
      · isplitl [Hh]; · iexact Hh
        isplitl [Ha0]; · iexact Ha0
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem (((c : Thread nD τ)).1, Proc.devRef .tc main_v3) = StableHlo.after hostOps1 (W2 m c) (Proc.devRef .tc main_v3)
      ∧ s.mem ((c : Thread nD τ).loc main_arg0) = V m c main_arg0)
    (hfin := fun c s' => by
      iintro ⟨⟨Hh, Ha0, -⟩, HSI⟩
      icombine HSI Ha0 gives %h0
      unfold StableHlo.held
      ihave Hr := (pointsTo_read_all S2 (fun b => (((c : Thread nD τ)).1, b)) (StableHlo.after hostOps1 (W2 m c)) s') $$ [Hh HSI]
      · isplitl [Hh] <;> iassumption
      icases Hr with ⟨%hS, HSI⟩
      imodintro
      isplitr
      · ipureintro; exact ⟨hS _ (by unfold S2; decide), Buf.eq_of_forall_mem_univ h0⟩
      iexact HSI)
    (hQ := fun s h c => ⟨(h c).1, (h c).2.trans (V_main_arg0 m c)⟩)

/-- THE FRAME: every weakly fair execution terminates, nothing faulting, the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.IdealFrame.Kit.lean ====
/-
  What the frame proof of the attention kernel is stated over: the contents of the buffers when the kernel region is
  entered (the input reshaped to 32 heads and re-typed), each window's block at a grid point, the two branch conditions
  of the body decided over the grid (the third grid coordinate is 0 at the even points and 1 at the odd ones), where
  the output window is idle, the staging and scratch buffers as the pipeline passes them, and the fact that an input
  window's staging buffer holds its block at every point, fetched there or not.
-/
import proofs.«430976_j25494925869080_3_alg».proof.Proof.Gen.KernelIdeal.Launch
import proofs.«430976_j25494925869080_3_alg».proof.Proof.Gen.KernelIdeal.Skeleton
import proofs.«430976_j25494925869080_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents and the windows' blocks -/

/-- Core `c`'s buffer contents when the region is entered: after the two host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, fetched there or not, for any proof data whose
    array is the entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the key/value window. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the grid -/

/-- "This is the row block's first key/value block": the third grid coordinate is 0. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the row block's last key/value block": the third grid coordinate is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At a first block the body stores nothing into the output window, and the pipeline does not write it back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a last block the body stores the output window's whole block. -/
theorem liveAt0_2_B : ∀ t : Fin cfg0.N, ¬cond0_0 (grid0.coords t) → cond0_1 (grid0.coords t) → cfg0.idle 2 (grid0.coords t) = false := by decide +kernel

/-! ## The staging and scratch buffers -/

/-- One staging buffer of the output window, through which its contents are stated. -/
abbrev VO0_2 : View sig .tc .vmem S1x1024x64 .f32 := (Memref.whole cc0_stg2_0 : Memref sig .tc .vmem S1x1024x64 .f32).view
/-- Each window's current staging buffer at point `t`, as the pipeline passes it, and its wholeness. -/
abbrev ms0_0 (t : Fin cfg0.N) : Memref sig .tc .vmem S1x1024x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x64 .f32 := win0_2.stage (cfg0.slots t 2)
abbrev hs0_2 (t : Fin cfg0.N) : (ms0_2 t).IsWhole := hstage0_2 ((cfg0.slots t 2).cast nbuf0_2)
/-- The three scratch buffers: the running maximum, the running sum of weights, the running weighted sum. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x64 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x64 .f32 := scM0_2.view

/-- What the launch hands the region beside the windows: the three scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.IdealFrame.RunA.lean ====
/-
  The kernel body at a row block's FIRST key/value block (third grid coordinate 0): the three scratch buffers are reset
  (running maximum `-∞`, running sums `0`), the block of scores is folded into them, and nothing is stored into the
  output window. Run on whole buffers, the body ends with each scratch buffer overwritten by the pieces found here, the
  inputs and the output window's buffer untouched.
-/
import proofs.«430976_j25494925869080_3_alg».proof.Proof.IdealFrame.Kit

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch buffers (last first) at a first block, with the run: on whole
    buffers — the inputs at their contents, the output window's at contents handed back untouched, the scratch buffers
    at anything — the body runs to the continuation holding the inputs and the output buffer as they were and each
    scratch buffer with its pieces written. -/
noncomputable def kernelRun0_A (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i)
    (x0 : Vec F S1x1024x64 .bf16) (x1 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi2 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xi2 E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%d6, %f6, %hf6, HS0⟩, ⟨%d7, %f7, %hf7, HS1⟩, ⟨%d8, %f8, %hf8, HS2⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.Hand

end
-- ==== Proof.IdealFrame.RunB.lean ====
/-
  The kernel body at a row block's LAST key/value block (third grid coordinate 1): nothing is reset, the block of scores is
  folded into the three scratch buffers as the point before left them, and the weighted sum divided by the sum of weights
  is stored into the output window's whole block.
-/
import proofs.«430976_j25494925869080_3_alg».proof.Proof.IdealFrame.RunA

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and the three scratch buffers (last first) at a last
    block, with the run: on whole buffers — the inputs at their contents, the output window's at anything, the scratch
    buffers at the contents `xs·` the point before left — the body runs to the continuation holding the inputs as they
    were and the output buffer and each scratch buffer with its pieces written. -/
noncomputable def kernelRun0_B (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1x1024x64 .bf16) (x1 : Vec F S1x1024x64 .bf16) (xs0 : Vec F S1024x1 .f32) (xs1 : Vec F S1024x1 .f32) (xs2 : Vec F S1024x64 .f32) :
    Σ' (L2 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%d2, %f2, %hf2, H2⟩, ⟨%f6, %hf6, HS0⟩, ⟨%f7, %hf7, HS1⟩, ⟨%f8, %hf8, HS2⟩, Hk⟩
    obtain rfl := harg3.eq_unread hf0; obtain rfl := harg4.eq_unread hf1
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.IdealFrame.Data.lean ====
/-
  What the buffers hold point by point, and the proof data of the pipeline. At an even point (a row block's first key/value
  block) the body resets the three scratch buffers and folds the block in; at an odd point it folds the block into what the
  point before left and stores the output block. `outsAt0` names, by recursion on the point, what the output window's
  buffer and the three scratch buffers hold after each point; the invariant carries the scratch buffers at those contents
  from one point to the next; the query and key/value windows read ONE array, so each holds half of it.
-/
import proofs.«430976_j25494925869080_3_alg».proof.Proof.IdealFrame.RunB

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as pieces read back -/

/-- At a first block the pieces stored into scratch buffer 0 cover it. -/
theorem scover0_A_0 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) (y : S1024x1.Idx) :
    ∃ pc ∈ (kernelRun0_A c i arg3 harg3 arg4 harg4 arg5 harg5 arg6 harg6 arg7 harg7 arg8 harg8 hc0 hc1 x0 x1).1, y ∈ pc.1.set :=
  View.cover_of_tiledL (kernelRun0_A c i arg3 harg3 arg4 harg4 arg5 harg5 arg6 harg6 arg7 harg7 arg8 harg8 hc0 hc1 x0 x1).1 S1024x1.size (by sl_kernel_rfl) y

/-- What a first block leaves in scratch buffer 0: its pieces read back. -/
def sout0_A_0 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) : Vec F S1024x1 .f32 :=
  VS0_0.read (Elt F) (VS0_0.writes (Elt F) VS0_0.junk (kernelRun0_A c i arg3 harg3 arg4 harg4 arg5 harg5 arg6 harg6 arg7 harg7 arg8 harg8 hc0 hc1 x0 x1).1)

/-- At a first block the pieces stored into scratch buffer 1 cover it. -/
theorem scover0_A_1 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) (y : S1024x1.Idx) :
    ∃ pc ∈ (kernelRun0_A c i arg3 harg3 arg4 harg4 arg5 harg5 arg6 harg6 arg7 harg7 arg8 harg8 hc0 hc1 x0 x1).2.1, y ∈ pc.1.set :=
  View.cover_of_tiledL (kernelRun0_A c i arg3 harg3 arg4 harg4 arg5 harg5 arg6 harg6 arg7 harg7 arg8 harg8 hc0 hc1 x0 x1).2.1 S1024x1.size (by sl_kernel_rfl) y

/-- What a first block leaves in scratch buffer 1: its pieces read back. -/
def sout0_A_1 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) : Vec F S1024x1 .f32 :=
  VS0_1.read (Elt F) (VS0_1.writes (Elt F) VS0_1.junk (kernelRun0_A c i arg3 harg3 arg4 harg4 arg5 harg5 arg6 harg6 arg7 harg7 arg8 harg8 hc0 hc1 x0 x1).2.1)

/-- At a first block the pieces stored into scratch buffer 2 cover it. -/
theorem scover0_A_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) (y : S1024x64.Idx) :
    ∃ pc ∈ (kernelRun0_A c i arg3 harg3 arg4 harg4 arg5 harg5 arg6 harg6 arg7 harg7 arg8 harg8 hc0 hc1 x0 x1).2.2.1, y ∈ pc.1.set :=
  View.cover_of_tiledL (kernelRun0_A c i arg3 harg3 arg4 harg4 arg5 harg5 arg6 harg6 arg7 harg7 arg8 harg8 hc0 hc1 x0 x1).2.2.1 S1024x64.size (by sl_kernel_rfl) y

/-- What a first block leaves in scratch buffer 2: its pieces read back. -/
def sout0_A_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) : Vec F S1024x64 .f32 :=
  VS0_2.read (Elt F) (VS0_2.writes (Elt F) VS0_2.junk (kernelRun0_A c i arg3 harg3 arg4 harg4 arg5 harg5 arg6 harg6 arg7 harg7 arg8 harg8 hc0 hc1 x0 x1).2.2.1)

/-- At a last block the one piece stored into the output window's buffer covers it. -/
theorem cover0_B_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) (y : S1x1024x64.Idx) :
    ∃ pc ∈ (kernelRun0_B c i arg3 harg3 arg4 harg4 arg5 harg5 arg6 harg6 arg7 harg7 arg8 harg8 hc0 hc1 x0 x1 xs0 xs1 xs2).1, y ∈ pc.1.set :=
  View.cover_of_tiledL (kernelRun0_B c i arg3 harg3 arg4 harg4 arg5 harg5 arg6 harg6 arg7 harg7 arg8 harg8 hc0 hc1 x0 x1 xs0 xs1 xs2).1 S1x1024x64.size (by sl_kernel_rfl) y

/-- What a last block leaves in the output window's buffer: its piece read back. -/
def out0_B_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) : Vec F S1x1024x64 .f32 :=
  VO0_2.read (Elt F) (VO0_2.writes (Elt F) VO0_2.junk (kernelRun0_B c i arg3 harg3 arg4 harg4 arg5 harg5 arg6 harg6 arg7 harg7 arg8 harg8 hc0 hc1 x0 x1 xs0 xs1 xs2).1)

/-- At a last block the piece stored into scratch buffer 0 covers it. -/
theorem scover0_B_0 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) (y : S1024x1.Idx) :
    ∃ pc ∈ (kernelRun0_B c i arg3 harg3 arg4 harg4 arg5 harg5 arg6 harg6 arg7 harg7 arg8 harg8 hc0 hc1 x0 x1 xs0 xs1 xs2).2.1, y ∈ pc.1.set :=
  View.cover_of_tiledL (kernelRun0_B c i arg3 harg3 arg4 harg4 arg5 harg5 arg6 harg6 arg7 harg7 arg8 harg8 hc0 hc1 x0 x1 xs0 xs1 xs2).2.1 S1024x1.size (by sl_kernel_rfl) y

/-- What a last block leaves in scratch buffer 0: its piece read back. -/
def sout0_B_0 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) : Vec F S1024x1 .f32 :=
  VS0_0.read (Elt F) (VS0_0.writes (Elt F) VS0_0.junk (kernelRun0_B c i arg3 harg3 arg4 harg4 arg5 harg5 arg6 harg6 arg7 harg7 arg8 harg8 hc0 hc1 x0 x1 xs0 xs1 xs2).2.1)

/-- At a last block the piece stored into scratch buffer 1 covers it. -/
theorem scover0_B_1 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) (y : S1024x1.Idx) :
    ∃ pc ∈ (kernelRun0_B c i arg3 harg3 arg4 harg4 arg5 harg5 arg6 harg6 arg7 harg7 arg8 harg8 hc0 hc1 x0 x1 xs0 xs1 xs2).2.2.1, y ∈ pc.1.set :=
  View.cover_of_tiledL (kernelRun0_B c i arg3 harg3 arg4 harg4 arg5 harg5 arg6 harg6 arg7 harg7 arg8 harg8 hc0 hc1 x0 x1 xs0 xs1 xs2).2.2.1 S1024x1.size (by sl_kernel_rfl) y

/-- What a last block leaves in scratch buffer 1: its piece read back. -/
def sout0_B_1 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) : Vec F S1024x1 .f32 :=
  VS0_1.read (Elt F) (VS0_1.writes (Elt F) VS0_1.junk (kernelRun0_B c i arg3 harg3 arg4 harg4 arg5 harg5 arg6 harg6 arg7 harg7 arg8 harg8 hc0 hc1 x0 x1 xs0 xs1 xs2).2.2.1)

/-- At a last block the piece stored into scratch buffer 2 covers it. -/
theorem scover0_B_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) (y : S1024x64.Idx) :
    ∃ pc ∈ (kernelRun0_B c i arg3 harg3 arg4 harg4 arg5 harg5 arg6 harg6 arg7 harg7 arg8 harg8 hc0 hc1 x0 x1 xs0 xs1 xs2).2.2.2.1, y ∈ pc.1.set :=
  View.cover_of_tiledL (kernelRun0_B c i arg3 harg3 arg4 harg4 arg5 harg5 arg6 harg6 arg7 harg7 arg8 harg8 hc0 hc1 x0 x1 xs0 xs1 xs2).2.2.2.1 S1024x64.size (by sl_kernel_rfl) y

/-- What a last block leaves in scratch buffer 2: its piece read back. -/
def sout0_B_2 (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) : Vec F S1024x64 .f32 :=
  VS0_2.read (Elt F) (VS0_2.writes (Elt F) VS0_2.junk (kernelRun0_B c i arg3 harg3 arg4 harg4 arg5 harg5 arg6 harg6 arg7 harg7 arg8 harg8 hc0 hc1 x0 x1 xs0 xs1 xs2).2.2.2.1)

/-! ## What the buffers hold after each point -/

/-- The contents after a point: the output window's buffer, then the three scratch buffers. -/
abbrev Outs (F : FTy → Type) [FloatOps F] : Type := Vec F S1x1024x64 .f32 × Vec F S1024x1 .f32 × Vec F S1024x1 .f32 × Vec F S1024x64 .f32

/-- After an even point: the scratch buffers at what a first block leaves; the output window's buffer is not stored into
    there (a placeholder nothing consults: the window is idle and not written back at these points). -/
def ptA (c : Dev nD) (t : Fin cfg0.N) (h : t.val % 2 = 0) : Outs F :=
  (VO0_2.read (Elt F) VO0_2.junk,
   sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => by have := (hcond0_1 t).mp h'; omega) (iblk m c 0 t) (iblk m c 1 t),
   sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => by have := (hcond0_1 t).mp h'; omega) (iblk m c 0 t) (iblk m c 1 t),
   sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h) (fun h' => by have := (hcond0_1 t).mp h'; omega) (iblk m c 0 t) (iblk m c 1 t))

/-- After an odd point, over what the point before left in the scratch buffers. -/
def ptB (c : Dev nD) (t : Fin cfg0.N) (h : t.val % 2 = 1) (p0 : Vec F S1024x1 .f32) (p1 : Vec F S1024x1 .f32) (p2 : Vec F S1024x64 .f32) : Outs F :=
  (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h) (iblk m c 0 t) (iblk m c 1 t) p0 p1 p2,
   sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h) (iblk m c 0 t) (iblk m c 1 t) p0 p1 p2,
   sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h) (iblk m c 0 t) (iblk m c 1 t) p0 p1 p2,
   sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h) (iblk m c 0 t) (iblk m c 1 t) p0 p1 p2)

/-- THE RECURSION over the points: an even point starts afresh, an odd one continues from the point before. -/
def outsAt0 (c : Dev nD) : (n : ℕ) → n < cfg0.N → Outs F
  | 0, hn => ptA m c ⟨0, hn⟩ rfl
  | n + 1, hn =>
    if h : (n + 1) % 2 = 0 then ptA m c ⟨n + 1, hn⟩ h
    else ptB m c ⟨n + 1, hn⟩ (by show (n + 1) % 2 = 1; omega) (outsAt0 c n (Nat.lt_of_succ_lt hn)).2.1 (outsAt0 c n (Nat.lt_of_succ_lt hn)).2.2.1 (outsAt0 c n (Nat.lt_of_succ_lt hn)).2.2.2

theorem outsAt0_A (c : Dev nD) (t : Fin cfg0.N) (h : t.val % 2 = 0) : outsAt0 m c t.val t.isLt = ptA m c t h := by
  obtain ⟨n, hn⟩ := t
  cases n with
  | zero => rfl
  | succ n => exact dif_pos h

theorem outsAt0_B (c : Dev nD) (t : Fin cfg0.N) (h : t.val % 2 = 1) :
    outsAt0 m c t.val t.isLt = ptB m c t h (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact absurd (show (0 : ℕ) % 2 = 1 from h) (by decide)
  | succ n => exact dif_neg (by (try dsimp only at h); omega)

/-- The region's invariant before position `n`: before the first point whatever the launch hands over (the scratch buffers
    at anything); afterwards the three scratch buffers at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body each input's buffer at its block and
    the output's at `outsAt0`; the invariant `PhiS`; nothing owed; the two input windows, which read one array, each
    at half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d

end Cert.KernelIdeal.Hand

end
-- ==== Proof.IdealFrame.Obligation.lean ====
/-
  The body obligation of the pipeline: at every grid point, from the invariant and each window's staging buffer at what it
  then holds, the kernel body runs to the invariant at the next point and each buffer at what the proof data says it
  leaves. An even point is a first block (the scratch buffers are taken at anything — what the launch hands over at the very
  first point, the previous row block's leftovers later — and given back at the first block's contents; the output window's
  buffer is handed back untouched); an odd point is a last block (the scratch buffers are taken at what the point before
  left, and the output block is stored).
-/
import proofs.«430976_j25494925869080_3_alg».proof.Proof.IdealFrame.Data

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the parity of the point says which case it is in; the
    invariant hands the scratch buffers over and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 128 := lt_of_lt_of_eq t.isLt (show cfg0.N = 128 from N_0)
  by_cases h0 : t.val % 2 = 0
  · rw [Dat.leavesExact_idle (dats m 0 c) 2 t (idleAt0_2_A t ((hcond0_0 t).mpr h0) (fun h' => by have := (hcond0_1 t).mp h'; omega)) (noFlush0_2_A t ((hcond0_0 t).mpr h0) (fun h' => by have := (hcond0_1 t).mp h'; omega))]
    rw [outsAt0_A m c t h0]
    unfold ptA sout0_A_0 sout0_A_1 sout0_A_2; (try dsimp only)
    have hpre : (dats m 0 c).Φ t.castSucc ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
      by_cases hz : t.val = 0
      · rw [PhiS_castSucc m c t, PhiS_zero m c _ _ hz, PhiA0_eq]
      · rw [PhiS_castSucc m c t, PhiS_pos m c _ _ hz]
        iintro ⟨⟨HS0, HS1, HS2⟩, Hg⟩
        isplitr [Hg]
        · isplitl [HS0]; · iexists _; iexact HS0
          isplitl [HS1]; · iexists _; iexact HS1
          iexists _; iexact HS2
        iexact Hg
    iintro ⟨HΦ, Ho, ⟨%d0, H0⟩, ⟨%d1, H1⟩, ⟨%d2, H2⟩⟩
    ihave HΦ' := hpre $$ HΦ
    icases HΦ' with ⟨⟨HS0, HS1, HS2⟩, Hg⟩
    iapply ((kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h' => by have := (hcond0_1 t).mp h'; omega) (iblk m c 0 t) (iblk m c 1 t)).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, ⟨%es0, HS0⟩, ⟨%es1, HS1⟩, ⟨%es2, HS2⟩⟩
    isplitl [HS0 HS1 HS2 Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        unfold owns; iexists _; isplitr
        swap; · iexact HS2
        ipureintro; exact View.read_writes_of_cover _ _ _ _ _ (scover0_A_2 c _ _ _ _ _ _ _ _ _ _ _ _ _ _ _ _ _)
      iexact Hg
    isplitl [Ho]; · iexact Ho
    isplitl [H0]; · iexact H0
    isplitl [H1]; · iexact H1
    iexists _; iexact H2
  · have h1 : t.val % 2 = 1 := by omega
    have hz : t.val ≠ 0 := by omega
    rw [show (dats m 0 c).leavesExact 2 t = owns (c : Thread nD τ) (ms0_2 t) fullShare ((dats m 0 c).after 2 t) from by
      unfold Dat.leavesExact; rw [liveAt0_2_B t (fun h' => by have := (hcond0_0 t).mp h'; omega) ((hcond0_1 t).mpr h1)], after0_2]
    rw [outsAt0_B m c t h1]
    unfold ptB out0_B_2 sout0_B_0 sout0_B_1 sout0_B_2; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩⟩
    iapply ((kernelRun0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h' => by have := (hcond0_0 t).mp h'; omega) ((hcond0_1 t).mpr h1) (iblk m c 0 t) (iblk m c 1 t) _ _ _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%es2, HS2⟩⟩
    isplitl [HS0 HS1 HS2 Hg]
    · isplitr [Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch buffers' named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

end Cert.KernelIdeal.Hand

end
-- ==== Proof.IdealFrame.Tail.lean ====
/-
  The buffers after the kernel region, as a valuation: the output array at what the pipeline's write-backs left
  (`arrAt 2 N`), every other buffer as the region found it. The reshape after the region reads this.
-/
import proofs.«430976_j25494925869080_3_alg».proof.Proof.IdealFrame.Data

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, as a valuation. -/
abbrev W0 (c : Dev nD) : Valuation τ sig (Elt F) := fun b => m (c, b)

/-- The contents after the region: the output array at what the write-backs left, every other buffer as the region found it. -/
def W2 (c : Dev nD) : Valuation τ sig (Elt F) := fun b =>
  if h : Proc.devRef .tc main_v2 = b then cast (congrArg (fun b' : DevRef τ sig => b'.ty.Contents (Elt F)) h) ((dats m 0 c).arrAt 2 cfg0.N)
  else V0 m c b

theorem W2_v2 (c : Dev nD) : W2 m c (Proc.devRef .tc main_v2) = (dats m 0 c).arrAt 2 cfg0.N := by
  unfold W2; rw [dif_pos rfl]; rfl

theorem W2_v3 (c : Dev nD) : W2 m c (Proc.devRef .tc main_v3) = V0 m c (Proc.devRef .tc main_v3) := by
  unfold W2; rw [dif_neg (by decide)]

end Cert.KernelIdeal.Hand

end
-- ==== Proof.IdealFrame.Launch.lean ====
/-
  The launch: @main as three segments — the two host operations before the kernel region (the reshape to 32 heads and the
  change of format), the region, and the reshape after it — composed by the library's rule for a list of segments. The
  region's query and key/value windows read ONE array: at entry its full share is split in two halves, one per window; the
  output array goes in whole. After the region the output array holds what the write-backs left (`arrAt 2 N`), and the
  last host operation reshapes it into the result; the argument array is never written.
-/
import proofs.«430976_j25494925869080_3_alg».proof.Proof.IdealFrame.Obligation
import proofs.«430976_j25494925869080_3_alg».proof.Proof.IdealFrame.Tail
import Idealize.ShloMosaic.Lib.Pipeline.Regions

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host segments -/

/-- No core owes another anything: no level is assigned. -/
abbrev L : GSem nD τ sig → Finset Unit := fun _ => ∅
abbrev lv : GSem nD τ sig → Unit → ℕ := fun _ _ => 0
abbrev 𝒱₀ : Variants := Variants.none
/-- No pipeline has a prefetched table. -/
abbrev adm : (p : Fin 1) → (pcfgs (F := F) p).Adm := fun p => (cfgs p).toPCfg_adm

/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The two operations before the region, over every unscoped buffer from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The two buffers the reshape after the region touches. -/
def S2 : Finset (DevRef τ sig) := {Proc.devRef .tc main_v2, Proc.devRef .tc main_v3}

/-- What rides beside the reshape after the region: the argument array as the region found it, and `R`. -/
abbrev R2 (c : Dev nD) : sProp 𝕄 := iprop((((c : Thread nD τ).loc main_arg0) ↦{fullShare} V m c main_arg0) ∗ R c)

/-- The reshape after the region, over the two buffers it touches. -/
def seg1 : Pipeline.HostSeg (Name := ℕ) (U := UR sig nD τ) (pcfgs (F := F)) defs₀ 𝒱₀ L lv :=
  Pipeline.HostSeg.ofOps _ _ _ _ _ S2 hostOps1
    (by intro op h; simp only [List.mem_cons, List.mem_nil_iff, or_false] at h; subst h; unfold S2; exact Finset.Subset.refl _)
    (fun op h => (List.forall_iff_forall_mem.mp hostOps1_fresh) op h) (W2 m) (R2 m)

/-! ## The region's arrays: one array behind two windows -/

/-- The buffers behind the windows' arrays, listed: the re-typed input and the output. -/
theorem arrBufs0_eq (c : Dev nD) (Vv : (b : Ref sig .tc) → Buf (Elt F) ((c : Thread nD τ).loc b)) :
    (Pipeline.arrBufs spec0 c Vv : sProp 𝕄)
      = iprop((((c : Thread nD τ).loc main_v1) ↦{fullShare} Vv main_v1) ∗ (((c : Thread nD τ).loc main_v2) ↦{fullShare} Vv main_v2)) := by
  unfold Pipeline.arrBufs; exact bigSep_eq_bigSepL_of_eq [main_v1, main_v2] (by decide) (by decide) _

/-- The proof data's arrays, window by window: the shared array at its two halves, the output array whole. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W0]
  rw [(arr_whole0 0).set_eq_univ, (arr_whole0 2).set_eq_univ]
  rfl

/-- ENTRY: a core's unscoped buffers at the entry contents are the pipeline's arrays — the shared array split in halves —
    and the buffers the region bypasses. -/
theorem entry_split (c : Dev nD) :
    (unscopedBufs c (V m c) : sProp 𝕄) ⊢ iprop((dats m 0 c).arrays ((dats m 0 c).arrAt · 0) ∗ Pipeline.unscopedRest spec0 c (V m c)) := by
  rw [Pipeline.unscopedBufs_split₀ cfgs 0 winFacts₀0.arr_unscoped c (V m c), arrBufs0_eq, arrays0_eq]
  iintro ⟨⟨H1, H2⟩, Hr⟩
  ihave H1' := (pointsTo_share (PosShare.mem_left_op_right fullShare)).1 $$ H1
  icases H1' with ⟨Hl, Hrr⟩
  isplitr [Hr]
  · isplitl [Hl]; · iexact Hl
    isplitl [Hrr]; · iexact Hrr
    iexact H2
  iexact Hr

/-- The two buffers of the last reshape, one by one. -/
theorem held_S2 (c : Dev nD) (W : Valuation τ sig (Elt F)) :
    (StableHlo.held (c : Thread nD τ) S2 W : sProp 𝕄)
      = iprop((((c : Thread nD τ).1, Proc.devRef .tc main_v2) ↦{fullShare} W (Proc.devRef .tc main_v2))
          ∗ (((c : Thread nD τ).1, Proc.devRef .tc main_v3) ↦{fullShare} W (Proc.devRef .tc main_v3))) := by
  unfold StableHlo.held S2
  exact bigSep_eq_bigSepL_of_eq [Proc.devRef .tc main_v2, Proc.devRef .tc main_v3] (by decide) (by decide) _

/-- The argument array reaches the region, and the end, as launched: no host operation writes it. -/
theorem V_main_arg0 (c : Dev nD) : V m c main_arg0 = m ((c : Thread nD τ).loc main_arg0) :=
  StableHlo.after_of_forall_not_mem (b := Proc.devRef .tc main_arg0) hostOps0 (fun b => m (c, b)) (List.forall_iff_forall_mem.mp (by
    simp only [hostOps0, List.Forall, StableHlo.unary_writes, StableHlo.reshape_writes, Finset.mem_singleton]
    repeat' apply And.intro
    all_goals exact StableHlo.devRef_ne_of_ne (by decide)))

/-! ## The region as a segment -/

set_option backward.isDefEq.respectTransparency.types false in
/-- THE REGION: entered from every unscoped buffer at the entry contents — the shared array split between the two input
    windows, the output array whole, the other buffers bypassing —, the generator register and the scratch buffers into the
    invariant and out; left with the output array at what the write-backs left and the argument array as found. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) S2 (W2 m c) ∗ R2 m c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin m c)
    unfold Pipeline.ΦA
    iintro ⟨Hp, -, Hr⟩
    isplitl [Hr]; · iexact Hr
    iexact Hp
  hout c := by
    rw [Pipeline.ownSems0_none]
    refine (hout m c).trans ?_
    unfold Pipeline.ΦA
    iintro ⟨Hr, Hp⟩
    isplitl [Hp]; · iexact Hp
    isplitr; · iempintro
    iexact Hr
  hexit c := by
    rw [arrays0_eq, unscopedRest0_eq, held_S2, W2_v2, W2_v3]
    iintro ⟨⟨-, -, H2⟩, HO, HY, ⟨Ha0, -, H3⟩⟩
    imodintro
    isplitl [H2 H3]
    · isplitl [H2]; · iexact H2
      iexact H3
    isplitl [Ha0]; · iexact Ha0
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (dats m) () defs₀ 𝒱₀ L lv) :=
  [.host (seg0 m), .region (reg0 m), .host (seg1 m)]

/-- The last thread state without what the core owes: the two buffers of the last reshape after it, the argument array as
    the region found it, the generator register at some state. -/
abbrev Tₙ (c : Dev nD) : sProp 𝕄 :=
  iprop(StableHlo.held (c : Thread nD τ) S2 (StableHlo.after hostOps1 (W2 m c))
    ∗ (((c : Thread nD τ).loc main_arg0) ↦{fullShare} V m c main_arg0) ∗ (∃ r, prngReg c r))

set_option backward.isDefEq.respectTransparency.types false in
/-- THE RUN: at the compiled mesh, from any memory with zero counters, every weakly fair execution of @main terminates,
    nothing faulting, and every final state has the result buffer at the reshape of what the region's write-backs left in the
    output array, and the argument array as launched. -/
theorem run_main : θ_run defs (onTc (τ := τ) (main (F := F))) ⟨m, fun _ => 0, ρ⟩ (fun r => ∀ c : Dev nD,
      r.2.mem ((c.tc : Thread nD τ).loc main_v3) = StableHlo.after hostOps1 (W2 m c) (Proc.devRef .tc main_v3)
      ∧ r.2.mem ((c.tc : Thread nD τ).loc main_arg0) = m ((c.tc : Thread nD τ).loc main_arg0)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) S2 (StableHlo.after hostOps1 (W2 m c)) ∗ R2 m c) ⊢ iprop(Tₙ m c ∗ ∃ W, owes (c : Thread nD τ) (0 : CellTallies nD τ sig Unit) W)
      iintro ⟨Hh, Ha0, Hp, HO⟩
      isplitr [HO]
      · isplitl [Hh]; · iexact Hh
        isplitl [Ha0]; · iexact Ha0
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem (((c : Thread nD τ)).1, Proc.devRef .tc main_v3) = StableHlo.after hostOps1 (W2 m c) (Proc.devRef .tc main_v3)
      ∧ s.mem ((c : Thread nD τ).loc main_arg0) = V m c main_arg0)
    (hfin := fun c s' => by
      iintro ⟨⟨Hh, Ha0, -⟩, HSI⟩
      icombine HSI Ha0 gives %h0
      unfold StableHlo.held
      ihave Hr := (pointsTo_read_all S2 (fun b => (((c : Thread nD τ)).1, b)) (StableHlo.after hostOps1 (W2 m c)) s') $$ [Hh HSI]
      · isplitl [Hh] <;> iassumption
      icases Hr with ⟨%hS, HSI⟩
      imodintro
      isplitr
      · ipureintro; exact ⟨hS _ (by unfold S2; decide), Buf.eq_of_forall_mem_univ h0⟩
      iexact HSI)
    (hQ := fun s h c => ⟨(h c).1, (h c).2.trans (V_main_arg0 m c)⟩)

/-- THE FRAME: every weakly fair execution terminates, nothing faulting, the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.IdealFrame.Pieces.lean ====
/-
  What each case of the body leaves in the buffers, as stages of the body's arithmetic: the pieces the stores wrote, read
  back, are the named values the body computes from its loads — at a first block from the reset values, at a last block from
  what the point before left.
-/
import proofs.«430976_j25494925869080_3_alg».proof.Proof.IdealFrame.Data
import Idealize.ShloMosaic.Lib.Pipeline.Value

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a rectangle starting at the origin of a two-axis buffer are the zero function. -/
private theorem zeroOffsets2 : (![0, 0] : Fin 2 → Nat) = fun _ => 0 := funext fun a => by fin_cases a <;> rfl

/-- The same for a three-axis buffer. -/
private theorem zeroOffsets3 : (![0, 0, 0] : Fin 3 → Nat) = fun _ => 0 := funext fun a => by fin_cases a <;> rfl

/-- A first block leaves the block's row maxima in the running-maximum buffer. -/
theorem sout0_A_0_eq (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) :
    sout0_A_0 c i arg3 harg3 arg4 harg4 arg5 harg5 arg6 harg6 arg7 harg7 arg8 harg8 hc0 hc1 x0 x1 = k0_pay2 (k0_pay9 x0 x1 (k0_pay4 (F := F))) := by
  unfold sout0_A_0
  rw [View.read_writes_eq_canon _ _ _ (scover0_A_0 c i arg3 harg3 arg4 harg4 arg5 harg5 arg6 harg6 arg7 harg7 arg8 harg8 hc0 hc1 x0 x1)]
  unfold kernelRun0_A
  dsimp only
  sl_unfold_words
  -- the last store covers the whole buffer, so the read-back is its payload; the loads before it read the reset values
  rw [View.canon_cons_unit_zero (S := S1024x1) zeroOffsets2]
  simp only [View.readAt_eq_ld, harg3.read_unread, harg4.read_unread, harg6.read_unread, harg7.read_unread,
    harg8.read_unread, View.ld_unit_zero (S := S1x1024x64) zeroOffsets3, View.ld_unit_zero (S := S1024x1) zeroOffsets2,
    View.ld_unit_zero (S := S1024x64) zeroOffsets2, View.readCov_unit_zero (S := S1024x1) _ zeroOffsets2,
    View.readCov_unit_zero (S := S1024x64) _ zeroOffsets2]

/-- A first block leaves the block's sums of weights in the running-sum buffer. -/
theorem sout0_A_1_eq (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) :
    sout0_A_1 c i arg3 harg3 arg4 harg4 arg5 harg5 arg6 harg6 arg7 harg7 arg8 harg8 hc0 hc1 x0 x1 = k0_pay12 x0 x1 (k0_pay4 (F := F)) (k0_pay5 (F := F)) := by
  unfold sout0_A_1
  rw [View.read_writes_eq_canon _ _ _ (scover0_A_1 c i arg3 harg3 arg4 harg4 arg5 harg5 arg6 harg6 arg7 harg7 arg8 harg8 hc0 hc1 x0 x1)]
  unfold kernelRun0_A
  dsimp only
  sl_unfold_words
  -- the last store covers the whole buffer, so the read-back is its payload; the loads before it read the reset values
  rw [View.canon_cons_unit_zero (S := S1024x1) zeroOffsets2]
  simp only [View.readAt_eq_ld, harg3.read_unread, harg4.read_unread, harg6.read_unread, harg7.read_unread,
    harg8.read_unread, View.ld_unit_zero (S := S1x1024x64) zeroOffsets3, View.ld_unit_zero (S := S1024x1) zeroOffsets2,
    View.ld_unit_zero (S := S1024x64) zeroOffsets2, View.readCov_unit_zero (S := S1024x1) _ zeroOffsets2,
    View.readCov_unit_zero (S := S1024x64) _ zeroOffsets2]

/-- A first block leaves the block's weighted sums of rows in the accumulator buffer. -/
theorem sout0_A_2_eq (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i) (x0 : Vec F S1x1024x64 .bf16) (x1 : Vec F S1x1024x64 .bf16) :
    sout0_A_2 c i arg3 harg3 arg4 harg4 arg5 harg5 arg6 harg6 arg7 harg7 arg8 harg8 hc0 hc1 x0 x1 = k0_pay1 (k0_pay13 x0 x1 (k0_pay4 (F := F)) (k0_pay6 (F := F))) := by
  unfold sout0_A_2
  rw [View.read_writes_eq_canon _ _ _ (scover0_A_2 c i arg3 harg3 arg4 harg4 arg5 harg5 arg6 harg6 arg7 harg7 arg8 harg8 hc0 hc1 x0 x1)]
  unfold kernelRun0_A
  dsimp only
  sl_unfold_words
  -- the last store covers the whole buffer, so the read-back is its payload; the loads before it read the reset values
  rw [View.canon_cons_unit_zero (S := S1024x64) zeroOffsets2]
  simp only [View.readAt_eq_ld, harg3.read_unread, harg4.read_unread, harg6.read_unread, harg7.read_unread,
    harg8.read_unread, View.ld_unit_zero (S := S1x1024x64) zeroOffsets3, View.ld_unit_zero (S := S1024x1) zeroOffsets2,
    View.ld_unit_zero (S := S1024x64) zeroOffsets2, View.readCov_unit_zero (S := S1024x1) _ zeroOffsets2,
    View.readCov_unit_zero (S := S1024x64) _ zeroOffsets2]

/-- A last block folds its row maxima into the running maximum. -/
theorem sout0_B_0_eq (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) :
    sout0_B_0 c i arg3 harg3 arg4 harg4 arg5 harg5 arg6 harg6 arg7 harg7 arg8 harg8 hc0 hc1 x0 x1 xs0 xs1 xs2 = k0_pay2 (k0_pay9 x0 x1 xs0) := by
  unfold sout0_B_0
  rw [View.read_writes_eq_canon _ _ _ (scover0_B_0 c i arg3 harg3 arg4 harg4 arg5 harg5 arg6 harg6 arg7 harg7 arg8 harg8 hc0 hc1 x0 x1 xs0 xs1 xs2)]
  unfold kernelRun0_B
  dsimp only
  sl_unfold_words
  -- the one store covers the whole buffer, so the read-back is its payload; the loads read the whole buffers' contents
  rw [View.canon_unit_zero (S := S1024x1) zeroOffsets2]
  simp only [View.readAt_eq_ld, harg3.read_unread, harg4.read_unread, harg6.read_unread, harg7.read_unread,
    harg8.read_unread, View.ld_unit_zero (S := S1x1024x64) zeroOffsets3, View.ld_unit_zero (S := S1024x1) zeroOffsets2,
    View.ld_unit_zero (S := S1024x64) zeroOffsets2, View.readCov_unit_zero (S := S1024x1) _ zeroOffsets2,
    View.readCov_unit_zero (S := S1024x64) _ zeroOffsets2]

/-- A last block folds its weights into the running sum. -/
theorem sout0_B_1_eq (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) :
    sout0_B_1 c i arg3 harg3 arg4 harg4 arg5 harg5 arg6 harg6 arg7 harg7 arg8 harg8 hc0 hc1 x0 x1 xs0 xs1 xs2 = k0_pay12 x0 x1 xs0 xs1 := by
  unfold sout0_B_1
  rw [View.read_writes_eq_canon _ _ _ (scover0_B_1 c i arg3 harg3 arg4 harg4 arg5 harg5 arg6 harg6 arg7 harg7 arg8 harg8 hc0 hc1 x0 x1 xs0 xs1 xs2)]
  unfold kernelRun0_B
  dsimp only
  sl_unfold_words
  -- the one store covers the whole buffer, so the read-back is its payload; the loads read the whole buffers' contents
  rw [View.canon_unit_zero (S := S1024x1) zeroOffsets2]
  simp only [View.readAt_eq_ld, harg3.read_unread, harg4.read_unread, harg6.read_unread, harg7.read_unread,
    harg8.read_unread, View.ld_unit_zero (S := S1x1024x64) zeroOffsets3, View.ld_unit_zero (S := S1024x1) zeroOffsets2,
    View.ld_unit_zero (S := S1024x64) zeroOffsets2, View.readCov_unit_zero (S := S1024x1) _ zeroOffsets2,
    View.readCov_unit_zero (S := S1024x64) _ zeroOffsets2]

/-- A last block folds its weighted rows into the accumulator. -/
theorem sout0_B_2_eq (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) :
    sout0_B_2 c i arg3 harg3 arg4 harg4 arg5 harg5 arg6 harg6 arg7 harg7 arg8 harg8 hc0 hc1 x0 x1 xs0 xs1 xs2 = k0_pay1 (k0_pay13 x0 x1 xs0 xs2) := by
  unfold sout0_B_2
  rw [View.read_writes_eq_canon _ _ _ (scover0_B_2 c i arg3 harg3 arg4 harg4 arg5 harg5 arg6 harg6 arg7 harg7 arg8 harg8 hc0 hc1 x0 x1 xs0 xs1 xs2)]
  unfold kernelRun0_B
  dsimp only
  sl_unfold_words
  -- the one store covers the whole buffer, so the read-back is its payload; the loads read the whole buffers' contents
  rw [View.canon_unit_zero (S := S1024x64) zeroOffsets2]
  simp only [View.readAt_eq_ld, harg3.read_unread, harg4.read_unread, harg6.read_unread, harg7.read_unread,
    harg8.read_unread, View.ld_unit_zero (S := S1x1024x64) zeroOffsets3, View.ld_unit_zero (S := S1024x1) zeroOffsets2,
    View.ld_unit_zero (S := S1024x64) zeroOffsets2, View.readCov_unit_zero (S := S1024x1) _ zeroOffsets2,
    View.readCov_unit_zero (S := S1024x64) _ zeroOffsets2]

/-- A last block stores the quotient of the new accumulator by the new running sum into the output window's buffer. -/
theorem out0_B_2_eq (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i) (x0 : Vec F S1x1024x64 .bf16) (x1 : Vec F S1x1024x64 .bf16) (xs0 : Vec F S1024x1 .f32) (xs1 : Vec F S1024x1 .f32) (xs2 : Vec F S1024x64 .f32) :
    out0_B_2 c i arg3 harg3 arg4 harg4 arg5 harg5 arg6 harg6 arg7 harg7 arg8 harg8 hc0 hc1 x0 x1 xs0 xs1 xs2 = k0_pay3 (k0_pay1 (k0_pay13 x0 x1 xs0 xs2)) (k0_pay12 x0 x1 xs0 xs1) := by
  unfold out0_B_2
  rw [View.read_writes_eq_canon _ _ _ (cover0_B_2 c i arg3 harg3 arg4 harg4 arg5 harg5 arg6 harg6 arg7 harg7 arg8 harg8 hc0 hc1 x0 x1 xs0 xs1 xs2)]
  unfold kernelRun0_B
  dsimp only
  sl_unfold_words
  -- the one store covers the whole buffer; its operands are loads of the accumulator and the running sum just stored
  rw [View.canon_unit_zero (S := S1x1024x64) zeroOffsets3]
  simp only [View.readAt_eq_ld, harg3.read_unread, harg4.read_unread, harg6.read_unread, harg7.read_unread,
    harg8.read_unread, View.ld_unit_zero (S := S1x1024x64) zeroOffsets3, View.ld_unit_zero (S := S1024x1) zeroOffsets2,
    View.ld_unit_zero (S := S1024x64) zeroOffsets2, View.readCov_unit_zero (S := S1024x1) _ zeroOffsets2,
    View.readCov_unit_zero (S := S1024x64) _ zeroOffsets2]

end Cert.KernelIdeal.Hand

end
-- ==== Proof.IdealFrame.Blocks.lean ====
/-
  The windows' blocks read at an index. The region finds the input reshaped from [2, 16, 2048, 64] to 32 heads of 2048 rows
  and re-typed (the identity on extended reals); grid point `t = 4·g + 2·qi + ki` is head `g`, row block `qi`, key/value
  block `ki`; the query window's block there is rows `1024·qi …` of head `g`, the key/value window's rows `1024·ki …`.
-/
import proofs.«430976_j25494925869080_3_alg».proof.Proof.IdealFrame.Kit
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Heads `[2, 16]` merged into one axis of 32: the merged array at head `g` is the operand at `(g / 16, g % 16)`,
    since both indices have row-major position `(g · 2048 + s) · 64 + e` (`g = (g / 16) · 16 + g % 16`). -/
theorem shapeCast_heads_apply {α : Type} (x : S2x16x2048x64.Idx → α) (h : S2x16x2048x64.ShapeCasts S32x2048x64)
    (g : Fin 32) (s : Fin 2048) (e : Fin 64) :
    shapeCast S32x2048x64 x h (ix3 g s e)
      = x (ix4 (⟨g.val / 16, by have := g.isLt; omega⟩ : Fin 2) (⟨g.val % 16, by omega⟩ : Fin 16) s e) :=
  shapeCast_apply x h _ _ (by
    rw [Shape.rowMajor_val_four, Shape.rowMajor_val_three]
    show ((g.val / 16 * 16 + g.val % 16) * 2048 + s.val) * 64 + e.val = (g.val * 2048 + s.val) * 64 + e.val
    rw [Nat.div_add_mod' g.val 16])

/-- The query window's block indices at grid point `t`: head `t / 4`, row block `(t / 2) % 2`, column block 0. -/
theorem idx_win0 : ∀ t : Fin cfg0.N, win0_0.index t (0 : Fin 3) = t.val / 4 ∧ win0_0.index t (1 : Fin 3) = t.val / 2 % 2 ∧ win0_0.index t (2 : Fin 3) = 0 :=
  (by decide +kernel : ∀ t : Fin grid0.N, win0_0.index t (0 : Fin 3) = t.val / 4 ∧ win0_0.index t (1 : Fin 3) = t.val / 2 % 2 ∧ win0_0.index t (2 : Fin 3) = 0)

/-- The key/value window's block indices at grid point `t`: head `t / 4`, row block `t % 2`, column block 0. -/
theorem idx_win1 : ∀ t : Fin cfg0.N, win0_1.index t (0 : Fin 3) = t.val / 4 ∧ win0_1.index t (1 : Fin 3) = t.val % 2 ∧ win0_1.index t (2 : Fin 3) = 0 :=
  (by decide +kernel : ∀ t : Fin grid0.N, win0_1.index t (0 : Fin 3) = t.val / 4 ∧ win0_1.index t (1 : Fin 3) = t.val % 2 ∧ win0_1.index t (2 : Fin 3) = 0)

/-- The array both input windows read: head `g`, row `s`, coordinate `e` of the reshaped input. -/
theorem V_v1_apply (c : Dev nD) (g : Fin 32) (s : Fin 2048) (e : Fin 64) :
    (V m c main_v1 : S32x2048x64.Idx → EReal) (ix3 g s e)
      = (m ((c : Thread nD τ).loc main_arg0) : S2x16x2048x64.Idx → EReal)
          (ix4 (⟨g.val / 16, by have := g.isLt; omega⟩ : Fin 2) (⟨g.val % 16, by omega⟩ : Fin 16) s e) := by
  -- the array is the conversion (the identity on extended reals) of the reshaped argument
  have e1 : (V m c main_v1 : S32x2048x64.Idx → EReal)
      = truncf .bf16 (shapeCast S32x2048x64 (m ((c : Thread nD τ).loc main_arg0) : S2x16x2048x64.Idx → EReal) shapeCasts_S2x16x2048x64_S32x2048x64 : FVec Ideal S32x2048x64 .f32) bitsLt_bf16_f32 := by
    show StableHlo.after hostOps0 (fun b => m (c, b)) (Proc.devRef .tc main_v1) = _
    after_results
    rfl
  rw [e1, truncf_apply, shapeCast_heads_apply]

/-- The query window's block at point `4·g + 2·qi + ki`: rows `1024·qi + r` of head `g`. -/
theorem iblk0_apply (c : Dev nD) (t : Fin cfg0.N) (g : Fin 32) (qi ki : Fin 2) (ht : t.val = g.val * 4 + qi.val * 2 + ki.val)
    (r : Fin 1024) (e : Fin 64) :
    (iblk m c 0 t : S1x1024x64.Idx → EReal) (ix3 (0 : Fin 1) r e)
      = (V m c main_v1 : S32x2048x64.Idx → EReal) (ix3 g (⟨qi.val * 1024 + r.val, by have := qi.isLt; have := r.isLt; omega⟩ : Fin 2048) e) := by
  obtain ⟨h0, h1, h2⟩ := idx_win0 t
  have hq := qi.isLt
  have hk := ki.isLt
  unfold iblk
  show (V m c main_v1 : S32x2048x64.Idx → EReal) (((cfg0.win 0).blk t).view.emb (ix3 (0 : Fin 1) r e)) = _
  refine congrArg _ ?_
  -- along each axis the block's coordinate is block index × block extent + coordinate inside the block
  funext a; apply Fin.ext
  match a with
  | ⟨0, _⟩ => show win0_0.index t (0 : Fin 3) * 1 + 1 * 0 = g.val; omega
  | ⟨1, _⟩ => show win0_0.index t (1 : Fin 3) * 1024 + 1 * r.val = qi.val * 1024 + r.val; omega
  | ⟨2, _⟩ => show win0_0.index t (2 : Fin 3) * 64 + 1 * e.val = e.val; omega

/-- The key/value window's block at point `4·g + 2·qi + ki`: rows `1024·ki + r` of head `g`. -/
theorem iblk1_apply (c : Dev nD) (t : Fin cfg0.N) (g : Fin 32) (qi ki : Fin 2) (ht : t.val = g.val * 4 + qi.val * 2 + ki.val)
    (r : Fin 1024) (e : Fin 64) :
    (iblk m c 1 t : S1x1024x64.Idx → EReal) (ix3 (0 : Fin 1) r e)
      = (V m c main_v1 : S32x2048x64.Idx → EReal) (ix3 g (⟨ki.val * 1024 + r.val, by have := ki.isLt; have := r.isLt; omega⟩ : Fin 2048) e) := by
  obtain ⟨h0, h1, h2⟩ := idx_win1 t
  have hq := qi.isLt
  have hk := ki.isLt
  unfold iblk
  show (V m c main_v1 : S32x2048x64.Idx → EReal) (((cfg0.win 1).blk t).view.emb (ix3 (0 : Fin 1) r e)) = _
  refine congrArg _ ?_
  -- along each axis the block's coordinate is block index × block extent + coordinate inside the block
  funext a; apply Fin.ext
  match a with
  | ⟨0, _⟩ => show win0_1.index t (0 : Fin 3) * 1 + 1 * 0 = g.val; omega
  | ⟨1, _⟩ => show win0_1.index t (1 : Fin 3) * 1024 + 1 * r.val = ki.val * 1024 + r.val; omega
  | ⟨2, _⟩ => show win0_1.index t (2 : Fin 3) * 64 + 1 * e.val = e.val; omega

end Cert.KernelIdeal.Hand

end
-- ==== Proof.Payloads.lean ====
/-
  The kernel body's arithmetic read at an index, at the extended reals: each named stage of the body — the block of
  scores, the running row maximum, the rescaling factor, the weights, the running sum of weights, the running weighted
  sum of rows, the final quotient — as a formula in the entries of the values it is computed from.
-/
import proofs.«430976_j25494925869080_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## A column vector from a vector, a column spread over a matrix, and the pattern of `-∞` -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The bit pattern of `-∞` denotes `⊥`. -/
theorem ofBits_neg_inf_f32 : Ideal.ofBits .f32 0xFF800000#32 = (⊥ : EReal) := by simp [Ideal.ofBits, Ideal.ieee]

/-- The reset value of the running maximum is `-∞` in every row. -/
theorem pay4_apply (r : Fin 1024) : k0_pay4 (F := Ideal) (ix2 r (0 : Fin 1)) = (⊥ : EReal) := by
  unfold k0_pay4
  rw [shapeCast_self]
  exact ofBits_neg_inf_f32

/-- The reset value of the running sum of weights is `0` in every row. -/
theorem pay5_apply (r : Fin 1024) : k0_pay5 (F := Ideal) (ix2 r (0 : Fin 1)) = (0 : EReal) := by
  unfold k0_pay5
  rw [shapeCast_self]
  exact Ideal.ofBits_zero_f32

/-- The reset value of the running weighted sum is `0` everywhere. -/
theorem pay6_apply (r : Fin 1024) (d : Fin 64) : k0_pay6 (F := Ideal) (ix2 r d) = (0 : EReal) := by
  unfold k0_pay6
  rw [shapeCast_self]
  exact Ideal.ofBits_zero_f32

/-- A same-shape cast is the identity. -/
theorem pay1_eq (v31 : FVec Ideal S1024x64 .f32) : k0_pay1 v31 = v31 := by
  unfold k0_pay1
  exact shapeCast_self _ _

theorem pay2_eq (v12 : FVec Ideal S1024x1 .f32) : k0_pay2 v12 = v12 := by
  unfold k0_pay2
  exact shapeCast_self _ _

/-! ## The two products' operand indices, axis by axis -/

theorem lhs_pay8_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_pay8_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_pay8_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_pay8_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem lhs_pay13_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pay13_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_pay13_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_pay13_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A product of a `[1024, 64]` matrix and a `[64, 1024]` matrix into the zero matrix, entry `(r, j)`. -/
theorem matmul8_apply (A : FVec Ideal S1024x64 .bf16) (B : FVec Ideal S64x1024 .bf16) (r j : Fin 1024) :
    matmul dot_S1024x64_S64x1024_S1024x1024_1_0_0_1_n_n none A B (constant S1024x1024 .f32 0x00000000#32) (ix2 r j)
      = ∑ e : Fin 64, A (ix2 r e) * B (ix2 e j) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r j) ((contrEquiv1 dot_S1024x64_S64x1024_S1024x1024_1_0_0_1_n_n 64 rfl rfl).symm k) = ix2 r k := funext fun a => Fin.ext (by
    match a with
    | ⟨0, _⟩ => exact lhs_pay8_0 _ _
    | ⟨1, _⟩ => exact (lhs_pay8_1 _ _).trans hk)
  have er : dot_S1024x64_S64x1024_S1024x1024_1_0_0_1_n_n.rhsIdx (ix2 r j) ((contrEquiv1 dot_S1024x64_S64x1024_S1024x1024_1_0_0_1_n_n 64 rfl rfl).symm k) = ix2 k j := funext fun a => Fin.ext (by
    match a with
    | ⟨0, _⟩ => exact (rhs_pay8_0 _ _).trans hk
    | ⟨1, _⟩ => exact rhs_pay8_1 _ _)
  rw [el, er]

/-- A product of a `[1024, 1024]` matrix and a `[1024, 64]` matrix into the zero matrix, entry `(r, d)`. -/
theorem matmul13_apply (A : FVec Ideal S1024x1024 .bf16) (B : FVec Ideal S1024x64 .bf16) (r : Fin 1024) (d : Fin 64) :
    matmul dot_S1024x1024_S1024x64_S1024x64_1_0_0_1_n_n none A B (constant S1024x64 .f32 0x00000000#32) (ix2 r d)
      = ∑ j : Fin 1024, A (ix2 r j) * B (ix2 j d) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d) ((contrEquiv1 dot_S1024x1024_S1024x64_S1024x64_1_0_0_1_n_n 1024 rfl rfl).symm k) = ix2 r k := funext fun a => Fin.ext (by
    match a with
    | ⟨0, _⟩ => exact lhs_pay13_0 _ _
    | ⟨1, _⟩ => exact (lhs_pay13_1 _ _).trans hk)
  have er : dot_S1024x1024_S1024x64_S1024x64_1_0_0_1_n_n.rhsIdx (ix2 r d) ((contrEquiv1 dot_S1024x1024_S1024x64_S1024x64_1_0_0_1_n_n 1024 rfl rfl).symm k) = ix2 k d := funext fun a => Fin.ext (by
    match a with
    | ⟨0, _⟩ => exact (rhs_pay13_0 _ _).trans hk
    | ⟨1, _⟩ => exact rhs_pay13_1 _ _)
  rw [el, er]

/-- The block of scores: row `r` of the first block against row `j` of the second. -/
theorem pay8_apply (v3 v5 : Vec Ideal S1x1024x64 .bf16) (r j : Fin 1024) :
    k0_pay8 v3 v5 (ix2 r j) = ∑ e : Fin 64, v3 (ix3 (0 : Fin 1) r e) * v5 (ix3 (0 : Fin 1) j e) := by
  unfold k0_pay8 k0_pay7
  rw [matmul8_apply]
  refine Finset.sum_congr rfl fun e _ => ?_
  rw [shapeCast_1ab_ab_apply, transpose_ix2_apply, shapeCast_1ab_ab_apply]

/-! ## A row's maximum and a row's sum -/

/-- The source index over row `r` of a `[1024, 1024]` matrix reduced along its columns, with column `k` inserted, is `(r, k)`. -/
theorem lift_row (h : S1024x1024.Reduces [1] S1024) (r k : Fin 1024) : h.lift (ix1 r) k = ix2 r k := by
  funext a
  refine Fin.ext ?_
  match a with
  | ⟨0, _⟩ => rfl
  | ⟨1, _⟩ => rfl

/-- The maximum along the columns of a `[1024, 1024]` matrix, started at `-∞`, read at row `r`: the fold of `max` from `⊥` over the row. -/
theorem rowMax_apply (src : FVec Ideal S1024x1024 .f32) (hφ : FKind.Formats .f32)
    (hacc : (0xFF800000#32 : BitVec 32) = FKind.maximumf.neutral .f32 hφ) (r : Fin 1024) :
    multiReduction .maximumf [1] S1024 src 0xFF800000#32 reduces_S1024x1024_S1024 hφ hacc (ix1 r)
      = (Finset.univ : Finset (Fin 1024)).fold max (⊥ : EReal) fun j => src (ix2 r j) := by
  have h1 := Ideal.multiReduction_maximumf_single (a := (1 : Fin 2)) src _ reduces_S1024x1024_S1024 hφ hacc (ix1 r)
  refine h1.trans ?_
  have hf : (src ∘ reduces_S1024x1024_S1024.lift (ix1 r)) = fun j : Fin 1024 => src (ix2 r j) :=
    funext fun k => congrArg src (lift_row _ r k)
  show (Finset.univ : Finset (Fin 1024)).fold max (Ideal.ofBits .f32 0xFF800000#32) _ = _
  rw [ofBits_neg_inf_f32, hf]

/-- The sum along the columns of a `[1024, 1024]` matrix read at row `r`: the sum over the row. -/
theorem rowSum_apply (src : FVec Ideal S1024x1024 .f32) (hφ : FKind.Formats .f32)
    (hacc : (0x00000000#32 : BitVec 32) = FKind.add.neutral .f32 hφ) (r : Fin 1024) :
    multiReduction .add [1] S1024 src 0x00000000#32 reduces_S1024x1024_S1024 hφ hacc (ix1 r)
      = ∑ j : Fin 1024, src (ix2 r j) := by
  have h1 := Ideal.multiReduction_add_single (a := (1 : Fin 2)) src _ reduces_S1024x1024_S1024 hφ hacc (ix1 r)
  refine h1.trans ?_
  exact Finset.sum_congr rfl fun k _ => congrArg src (lift_row _ r k)

/-- The new running maximum of row `r`: the old one against the largest score of the row, the fold started at `-∞`. -/
theorem pay9_apply (v3 v5 : Vec Ideal S1x1024x64 .bf16) (v9 : Vec Ideal S1024x1 .f32) (r : Fin 1024) :
    k0_pay9 v3 v5 v9 (ix2 r (0 : Fin 1))
      = max (v9 (ix2 r (0 : Fin 1))) ((Finset.univ : Finset (Fin 1024)).fold max (⊥ : EReal) fun j => k0_pay8 v3 v5 (ix2 r j)) := by
  unfold k0_pay9
  rw [maximumf_apply, shapeCast_a_a1_apply]
  exact congrArg (max _) (rowMax_apply _ _ _ r)

/-- The rescaling factor of row `r`: `exp (old maximum − new maximum)`. -/
theorem pay10_apply (v3 v5 : Vec Ideal S1x1024x64 .bf16) (v9 : Vec Ideal S1024x1 .f32) (r : Fin 1024) :
    k0_pay10 v3 v5 v9 (ix2 r (0 : Fin 1)) = Ideal.exp (v9 (ix2 r (0 : Fin 1)) - k0_pay9 v3 v5 v9 (ix2 r (0 : Fin 1))) := by
  unfold k0_pay10
  rfl

/-- The weights: `exp (score − new maximum of the row)`. -/
theorem pay11_apply (v3 v5 : Vec Ideal S1x1024x64 .bf16) (v9 : Vec Ideal S1024x1 .f32) (r j : Fin 1024) :
    k0_pay11 v3 v5 v9 (ix2 r j) = Ideal.exp (k0_pay8 v3 v5 (ix2 r j) - k0_pay9 v3 v5 v9 (ix2 r (0 : Fin 1))) := by
  unfold k0_pay11
  show Ideal.exp (subf (k0_pay8 v3 v5) (broadcastTo S1024x1024 (k0_pay9 v3 v5 v9) broadcasts_S1024x1_S1024x1024) (ix2 r j)) = _
  rw [subf_apply, broadcastTo_a1_ab_apply]

/-- The new running sum of weights of row `r`. -/
theorem pay12_apply (v3 v5 : Vec Ideal S1x1024x64 .bf16) (v9 v22 : Vec Ideal S1024x1 .f32) (r : Fin 1024) :
    k0_pay12 v3 v5 v9 v22 (ix2 r (0 : Fin 1))
      = k0_pay10 v3 v5 v9 (ix2 r (0 : Fin 1)) * v22 (ix2 r (0 : Fin 1)) + ∑ j : Fin 1024, k0_pay11 v3 v5 v9 (ix2 r j) := by
  unfold k0_pay12
  rw [shapeCast_self, addf_apply, mulf_apply, shapeCast_a_a1_apply]
  exact congrArg (_ + ·) (rowSum_apply _ _ _ r)

/-- The new running weighted sum of rows, entry `(r, d)`. -/
theorem pay13_apply (v3 v5 : Vec Ideal S1x1024x64 .bf16) (v9 : Vec Ideal S1024x1 .f32) (v28 : Vec Ideal S1024x64 .f32)
    (r : Fin 1024) (d : Fin 64) :
    k0_pay13 v3 v5 v9 v28 (ix2 r d)
      = k0_pay10 v3 v5 v9 (ix2 r (0 : Fin 1)) * v28 (ix2 r d)
        + ∑ j : Fin 1024, k0_pay11 v3 v5 v9 (ix2 r j) * v5 (ix3 (0 : Fin 1) j d) := by
  unfold k0_pay13 k0_pay7
  rw [addf_apply, mulf_apply, broadcastTo_a1_ab_apply, matmul13_apply]
  congr 1
  refine Finset.sum_congr rfl fun j _ => ?_
  rw [truncf_apply, shapeCast_1ab_ab_apply]

/-- The output block: the weighted sum divided by the sum of weights, row by row. -/
theorem pay3_apply (v41 : Vec Ideal S1024x64 .f32) (v42 : Vec Ideal S1024x1 .f32) (r : Fin 1024) (d : Fin 64) :
    k0_pay3 v41 v42 (ix3 (0 : Fin 1) r d) = Ideal.div (v41 (ix2 r d)) (v42 (ix2 r (0 : Fin 1))) := by
  unfold k0_pay3
  rw [shapeCast_ab_1ab_apply, divf_apply, broadcastTo_a1_ab_apply]

end Cert.KernelIdeal.Pay

end
-- ==== Proof.Spec.lean ====
/-
  Attention of one tensor against itself, over the reals: for a real array `x[b, h, s, d]` (2 × 16 × 2048 × 64) the
  scores `score q k = ∑ d, x q d · x k d`, each row's maximum, the weights `exp (score − max)`, their sum, and the
  weighted mean of the rows of `x`. Both programs are shown to compute `attn` (as extended reals) wherever the
  input is real.
-/
import Mathlib.Analysis.SpecialFunctions.Exp
import Mathlib.Data.Real.Basic
import Mathlib.Algebra.BigOperators.Fin

noncomputable section

namespace Cert.Attn

/-- A real input array, by coordinates. -/
abbrev RArr := Fin 2 → Fin 16 → Fin 2048 → Fin 64 → ℝ

/-- One head's rows: `n` rows of `D` reals. -/
abbrev Rows (n D : ℕ) := Fin n → Fin D → ℝ

/-- The score of a query row `u` against row `k` of `X`. -/
def rscore {n D : ℕ} (u : Fin D → ℝ) (X : Rows n D) (k : Fin n) : ℝ := ∑ e, u e * X k e

/-- The largest score of `u` against the rows of `X` (`n` positive). -/
def rmax {n D : ℕ} [NeZero n] (u : Fin D → ℝ) (X : Rows n D) : ℝ :=
  Finset.univ.sup' (Finset.univ_nonempty (α := Fin n)) (rscore u X)

/-- The softmax-weighted mean of the rows of `X` under the query `u`, coordinate `d`:
    `(∑ k, exp (score k − max) · X k d) / ∑ k, exp (score k − max)`. -/
def rattn {n D : ℕ} [NeZero n] (u : Fin D → ℝ) (X : Rows n D) (d : Fin D) : ℝ :=
  (∑ k, Real.exp (rscore u X k - rmax u X) * X k d) / ∑ k, Real.exp (rscore u X k - rmax u X)

/-- The whole result: head `(b, h)`, query row `q`, coordinate `d`. -/
def attn (x : RArr) (b : Fin 2) (h : Fin 16) (q : Fin 2048) (d : Fin 64) : ℝ :=
  rattn (x b h q) (x b h) d

end Cert.Attn

end
-- ==== Proof.StepsReal.lean ====
/-
  The body's stages over REAL blocks. When the two loaded blocks hold real numbers `Q` (the query rows) and `K`
  (the key/value rows), each stage of the body is the coercion of a real formula: at the first block of a row (the
  running state just reset to `-∞, 0, 0`) the maximum, the sum of weights and the weighted sum of that block alone;
  at a later block, from a real running state `(m0, l0, a0)`, the state folded with this block; and the final
  quotient of real sums with a nonzero denominator is the real quotient.
-/
import proofs.«430976_j25494925869080_3_alg».proof.Proof.Payloads
import proofs.«430976_j25494925869080_3_alg».proof.Proof.Spec

noncomputable section

namespace Cert.KernelIdeal.Pay

open Cert.KernelIdeal Cert.KernelIdeal.Gen Idealize.ShloMosaic Idealize.ShloMosaic.ValueIdx Cert.Attn

/-! ### Coercions of finite real sums, maxima and folds of maxima into the extended reals -/

/-- The coercion of a finite real sum is the sum of the coercions. -/
private theorem coe_finsum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion is monotone, so it carries the larger of two reals to the larger of their coercions. -/
private theorem coe_max_real (a b : ℝ) : ((max a b : ℝ) : EReal) = max (a : EReal) (b : EReal) :=
  EReal.coe_strictMono.monotone.map_max

/-- The fold of `max` from `-∞` over finitely many (at least one) real numbers is their largest. -/
private theorem fold_max_coe {n : ℕ} [NeZero n] (f : Fin n → ℝ) :
    (Finset.univ : Finset (Fin n)).fold max (⊥ : EReal) (fun k => ((f k : ℝ) : EReal))
      = ((Finset.univ.sup' (Finset.univ_nonempty (α := Fin n)) f : ℝ) : EReal) := by
  apply le_antisymm
  · rw [Finset.fold_max_le]
    exact ⟨bot_le, fun x hx => EReal.coe_le_coe_iff.mpr (Finset.le_sup' f hx)⟩
  · obtain ⟨i, hi, h⟩ := Finset.exists_mem_eq_sup' (Finset.univ_nonempty (α := Fin n)) f
    rw [h, Finset.le_fold_max]
    exact Or.inr ⟨i, hi, le_rfl⟩

variable (v3 v5 : Vec Ideal S1x1024x64 .bf16) (Q K : Rows 1024 64)
  (hq : ∀ (r : Fin 1024) (e : Fin 64), v3 (ix3 (0 : Fin 1) r e) = ((Q r e : ℝ) : EReal))
  (hk : ∀ (j : Fin 1024) (e : Fin 64), v5 (ix3 (0 : Fin 1) j e) = ((K j e : ℝ) : EReal))

include hq hk

/-! ### The stages shared by the first and the later blocks -/

/-- The score of row `r` against row `j` is the coercion of the real score. -/
private theorem score_real (r j : Fin 1024) :
    k0_pay8 v3 v5 (ix2 r j) = ((rscore (Q r) K j : ℝ) : EReal) := by
  rw [pay8_apply]
  simp only [hq, hk]
  rw [rscore, coe_finsum]
  exact Finset.sum_congr rfl fun e _ => (EReal.coe_mul _ _).symm

/-- The largest score of row `r` in the block: the fold of `max` from `-∞` is the real maximum. -/
private theorem blockmax_real (r : Fin 1024) :
    ((Finset.univ : Finset (Fin 1024)).fold max (⊥ : EReal) fun j => k0_pay8 v3 v5 (ix2 r j))
      = ((rmax (Q r) K : ℝ) : EReal) := by
  simp only [score_real v3 v5 Q K hq hk]
  exact fold_max_coe (rscore (Q r) K)

/-- The new maximum at the first block: `max (-∞) x = x`. -/
private theorem newmax_first (r : Fin 1024) :
    k0_pay9 v3 v5 (k0_pay4 (F := Ideal)) (ix2 r (0 : Fin 1)) = ((rmax (Q r) K : ℝ) : EReal) := by
  rw [pay9_apply, pay4_apply, blockmax_real v3 v5 Q K hq hk]
  exact max_eq_right bot_le

/-- The new maximum from a real running maximum. -/
private theorem newmax_next (v9 : Vec Ideal S1024x1 .f32) (m0 : Fin 1024 → ℝ)
    (hm : ∀ r : Fin 1024, v9 (ix2 r (0 : Fin 1)) = ((m0 r : ℝ) : EReal)) (r : Fin 1024) :
    k0_pay9 v3 v5 v9 (ix2 r (0 : Fin 1)) = ((max (m0 r) (rmax (Q r) K) : ℝ) : EReal) := by
  rw [pay9_apply, hm, blockmax_real v3 v5 Q K hq hk, coe_max_real]

/-- The rescaling factor at the first block: `-∞ - m = -∞` and `exp (-∞) = 0`. -/
private theorem rescale_first (r : Fin 1024) :
    k0_pay10 v3 v5 (k0_pay4 (F := Ideal)) (ix2 r (0 : Fin 1)) = (0 : EReal) := by
  rw [pay10_apply, pay4_apply, EReal.bot_sub, Ideal.exp_bot]

/-- The rescaling factor from a real running maximum. -/
private theorem rescale_next (v9 : Vec Ideal S1024x1 .f32) (m0 : Fin 1024 → ℝ)
    (hm : ∀ r : Fin 1024, v9 (ix2 r (0 : Fin 1)) = ((m0 r : ℝ) : EReal)) (r : Fin 1024) :
    k0_pay10 v3 v5 v9 (ix2 r (0 : Fin 1))
      = ((Real.exp (m0 r - max (m0 r) (rmax (Q r) K)) : ℝ) : EReal) := by
  rw [pay10_apply, newmax_next v3 v5 Q K hq hk v9 m0 hm, hm, ← EReal.coe_sub, Ideal.exp_coe]

/-- The weights at the first block. -/
private theorem weight_first (r j : Fin 1024) :
    k0_pay11 v3 v5 (k0_pay4 (F := Ideal)) (ix2 r j)
      = ((Real.exp (rscore (Q r) K j - rmax (Q r) K) : ℝ) : EReal) := by
  rw [pay11_apply, score_real v3 v5 Q K hq hk, newmax_first v3 v5 Q K hq hk, ← EReal.coe_sub, Ideal.exp_coe]

/-- The weights from a real running maximum. -/
private theorem weight_next (v9 : Vec Ideal S1024x1 .f32) (m0 : Fin 1024 → ℝ)
    (hm : ∀ r : Fin 1024, v9 (ix2 r (0 : Fin 1)) = ((m0 r : ℝ) : EReal)) (r j : Fin 1024) :
    k0_pay11 v3 v5 v9 (ix2 r j)
      = ((Real.exp (rscore (Q r) K j - max (m0 r) (rmax (Q r) K)) : ℝ) : EReal) := by
  rw [pay11_apply, score_real v3 v5 Q K hq hk, newmax_next v3 v5 Q K hq hk v9 m0 hm, ← EReal.coe_sub,
    Ideal.exp_coe]

/-! ### The statements -/

/-- First block of a row: the new maximum is the block's largest score. -/
theorem first_max (r : Fin 1024) :
    k0_pay2 (k0_pay9 v3 v5 (k0_pay4 (F := Ideal))) (ix2 r (0 : Fin 1)) = ((rmax (Q r) K : ℝ) : EReal) := by
  rw [pay2_eq]
  exact newmax_first v3 v5 Q K hq hk r

/-- First block of a row: the sum of weights relative to that maximum. -/
theorem first_den (r : Fin 1024) :
    k0_pay12 v3 v5 (k0_pay4 (F := Ideal)) (k0_pay5 (F := Ideal)) (ix2 r (0 : Fin 1))
      = ((∑ j, Real.exp (rscore (Q r) K j - rmax (Q r) K) : ℝ) : EReal) := by
  rw [pay12_apply, rescale_first v3 v5 Q K hq hk, pay5_apply, zero_mul, zero_add, coe_finsum]
  exact Finset.sum_congr rfl fun j _ => weight_first v3 v5 Q K hq hk r j

/-- First block of a row: the weighted sum of the block's rows. -/
theorem first_num (r : Fin 1024) (d : Fin 64) :
    k0_pay1 (k0_pay13 v3 v5 (k0_pay4 (F := Ideal)) (k0_pay6 (F := Ideal))) (ix2 r d)
      = ((∑ j, Real.exp (rscore (Q r) K j - rmax (Q r) K) * K j d : ℝ) : EReal) := by
  rw [pay1_eq, pay13_apply, rescale_first v3 v5 Q K hq hk, pay6_apply, zero_mul, zero_add, coe_finsum]
  refine Finset.sum_congr rfl fun j _ => ?_
  rw [weight_first v3 v5 Q K hq hk, hk, EReal.coe_mul]

/-- A later block, from a real running maximum `m0`: the larger of it and the block's largest score. -/
theorem next_max (v9 : Vec Ideal S1024x1 .f32) (m0 : Fin 1024 → ℝ)
    (hm : ∀ r : Fin 1024, v9 (ix2 r (0 : Fin 1)) = ((m0 r : ℝ) : EReal)) (r : Fin 1024) :
    k0_pay2 (k0_pay9 v3 v5 v9) (ix2 r (0 : Fin 1)) = ((max (m0 r) (rmax (Q r) K) : ℝ) : EReal) := by
  rw [pay2_eq]
  exact newmax_next v3 v5 Q K hq hk v9 m0 hm r

/-- A later block: the running sum of weights rescaled to the new maximum, plus this block's weights. -/
theorem next_den (v9 v22 : Vec Ideal S1024x1 .f32) (m0 l0 : Fin 1024 → ℝ)
    (hm : ∀ r : Fin 1024, v9 (ix2 r (0 : Fin 1)) = ((m0 r : ℝ) : EReal))
    (hl : ∀ r : Fin 1024, v22 (ix2 r (0 : Fin 1)) = ((l0 r : ℝ) : EReal)) (r : Fin 1024) :
    k0_pay12 v3 v5 v9 v22 (ix2 r (0 : Fin 1))
      = ((Real.exp (m0 r - max (m0 r) (rmax (Q r) K)) * l0 r
          + ∑ j, Real.exp (rscore (Q r) K j - max (m0 r) (rmax (Q r) K)) : ℝ) : EReal) := by
  rw [pay12_apply, rescale_next v3 v5 Q K hq hk v9 m0 hm, hl, EReal.coe_add, EReal.coe_mul, coe_finsum]
  congr 1
  exact Finset.sum_congr rfl fun j _ => weight_next v3 v5 Q K hq hk v9 m0 hm r j

/-- A later block: the running weighted sum rescaled, plus this block's weighted rows. -/
theorem next_num (v9 : Vec Ideal S1024x1 .f32) (v28 : Vec Ideal S1024x64 .f32) (m0 : Fin 1024 → ℝ) (a0 : Fin 1024 → Fin 64 → ℝ)
    (hm : ∀ r : Fin 1024, v9 (ix2 r (0 : Fin 1)) = ((m0 r : ℝ) : EReal))
    (ha : ∀ (r : Fin 1024) (d : Fin 64), v28 (ix2 r d) = ((a0 r d : ℝ) : EReal)) (r : Fin 1024) (d : Fin 64) :
    k0_pay1 (k0_pay13 v3 v5 v9 v28) (ix2 r d)
      = ((Real.exp (m0 r - max (m0 r) (rmax (Q r) K)) * a0 r d
          + ∑ j, Real.exp (rscore (Q r) K j - max (m0 r) (rmax (Q r) K)) * K j d : ℝ) : EReal) := by
  rw [pay1_eq, pay13_apply, rescale_next v3 v5 Q K hq hk v9 m0 hm, ha, EReal.coe_add, EReal.coe_mul, coe_finsum]
  congr 1
  refine Finset.sum_congr rfl fun j _ => ?_
  rw [weight_next v3 v5 Q K hq hk v9 m0 hm, hk, EReal.coe_mul]

omit hq hk in
/-- The final quotient of a real numerator by a nonzero real denominator is the real quotient. -/
theorem out_div (A : Vec Ideal S1024x64 .f32) (L : Vec Ideal S1024x1 .f32) (r : Fin 1024) (d : Fin 64) (a l : ℝ) (hl : l ≠ 0)
    (hA : A (ix2 r d) = ((a : ℝ) : EReal)) (hL : L (ix2 r (0 : Fin 1)) = ((l : ℝ) : EReal)) :
    k0_pay3 A L (ix3 (0 : Fin 1) r d) = ((a / l : ℝ) : EReal) := by
  rw [pay3_apply, hA, hL, Ideal.div_coe hl, ← EReal.coe_mul, ← div_eq_mul_one_div]

end Cert.KernelIdeal.Pay

end
-- ==== Proof.Online.lean ====
/-
  The two-block form of the softmax-weighted mean. A query row `u` is scored against the 2048 rows of `X` in two
  blocks of 1024: the first block gives a maximum `m0`, a sum of weights `l0` and a weighted sum `a0` relative to
  `m0`; the second block raises the maximum to `M`, rescales the first block's sums by `exp (m0 − M)` and adds its
  own. The quotient of the two running sums is the one-pass softmax-weighted mean over all 2048 rows.
-/
import proofs.«430976_j25494925869080_3_alg».proof.Proof.Spec

noncomputable section

namespace Cert.Attn

/-- The largest score over `n + n` rows is the larger of the largest scores over the first `n` rows and over the
    last `n` rows. -/
private theorem rmax_append {n D : ℕ} [NeZero n] [NeZero (n + n)] (u : Fin D → ℝ) (X : Rows (n + n) D) :
    rmax u X = max (rmax u (fun j : Fin n => X (Fin.castAdd n j))) (rmax u (fun j : Fin n => X (Fin.natAdd n j))) := by
  unfold rmax
  apply le_antisymm
  · apply Finset.sup'_le
    intro k _
    refine Fin.addCases (fun j => ?_) (fun j => ?_) k
    · exact le_max_of_le_left
        (Finset.le_sup' (f := rscore u (fun j : Fin n => X (Fin.castAdd n j))) (Finset.mem_univ j))
    · exact le_max_of_le_right
        (Finset.le_sup' (f := rscore u (fun j : Fin n => X (Fin.natAdd n j))) (Finset.mem_univ j))
  · apply max_le
    · apply Finset.sup'_le
      intro j _
      exact Finset.le_sup' (f := rscore u X) (Finset.mem_univ (Fin.castAdd n j))
    · apply Finset.sup'_le
      intro j _
      exact Finset.le_sup' (f := rscore u X) (Finset.mem_univ (Fin.natAdd n j))

/-- Rescaling a block's weighted sum: `exp (m − M) · ∑ j, exp (s j − m) · c j = ∑ j, exp (s j − M) · c j`, by
    `exp a · exp b = exp (a + b)`. -/
private theorem rescale_sum {n : ℕ} (m M : ℝ) (s c : Fin n → ℝ) :
    Real.exp (m - M) * (∑ j, Real.exp (s j - m) * c j) = ∑ j, Real.exp (s j - M) * c j := by
  rw [Finset.mul_sum]
  refine Finset.sum_congr rfl (fun j _ => ?_)
  rw [← mul_assoc, ← Real.exp_add]
  congr 2
  ring

/-- The two-block fold over `n + n` rows: the first block's sums relative to its own maximum, rescaled to the
    overall maximum, plus the second block's sums relative to the overall maximum, give the softmax-weighted mean
    over all rows. -/
private theorem online_append {n D : ℕ} [NeZero n] [NeZero (n + n)] (u : Fin D → ℝ) (X : Rows (n + n) D) (d : Fin D)
    (K0 K1 : Rows n D) (h0 : ∀ j : Fin n, X (Fin.castAdd n j) = K0 j) (h1 : ∀ j : Fin n, X (Fin.natAdd n j) = K1 j) :
    (Real.exp (rmax u K0 - max (rmax u K0) (rmax u K1)) * (∑ j, Real.exp (rscore u K0 j - rmax u K0) * K0 j d)
        + ∑ j, Real.exp (rscore u K1 j - max (rmax u K0) (rmax u K1)) * K1 j d)
      / (Real.exp (rmax u K0 - max (rmax u K0) (rmax u K1)) * (∑ j, Real.exp (rscore u K0 j - rmax u K0))
        + ∑ j, Real.exp (rscore u K1 j - max (rmax u K0) (rmax u K1)))
      = rattn u X d := by
  have e0 : (fun j : Fin n => X (Fin.castAdd n j)) = K0 := funext h0
  have e1 : (fun j : Fin n => X (Fin.natAdd n j)) = K1 := funext h1
  have s0 : ∀ j : Fin n, rscore u X (Fin.castAdd n j) = rscore u K0 j := fun j => by
    unfold rscore; rw [h0 j]
  have s1 : ∀ j : Fin n, rscore u X (Fin.natAdd n j) = rscore u K1 j := fun j => by
    unfold rscore; rw [h1 j]
  have hM : rmax u X = max (rmax u K0) (rmax u K1) := by rw [rmax_append, e0, e1]
  unfold rattn
  rw [hM, Fin.sum_univ_add, Fin.sum_univ_add]
  simp only [s0, s1, h0, h1]
  rw [rescale_sum]
  have h := rescale_sum (rmax u K0) (max (rmax u K0) (rmax u K1)) (rscore u K0) (fun _ => 1)
  simp only [mul_one] at h
  rw [h]

/-- The running denominator after both blocks is positive (it contains the weight `exp 0 = 1` of a maximal score,
    possibly rescaled, and all weights are positive). -/
theorem online_den_pos (u : Fin 64 → ℝ) (K0 K1 : Rows 1024 64) :
    0 < Real.exp (rmax u K0 - max (rmax u K0) (rmax u K1)) * (∑ j, Real.exp (rscore u K0 j - rmax u K0))
        + ∑ j, Real.exp (rscore u K1 j - max (rmax u K0) (rmax u K1)) := by
  refine add_pos_of_nonneg_of_pos ?_ ?_
  · exact mul_nonneg (Real.exp_pos _).le (Finset.sum_nonneg (fun j _ => (Real.exp_pos _).le))
  · exact Finset.sum_pos (fun j _ => Real.exp_pos _) Finset.univ_nonempty

/-- Two blocks of 1024 rows, folded one after the other, give the softmax-weighted mean over the 2048 rows. -/
theorem online_two (u : Fin 64 → ℝ) (K0 K1 : Rows 1024 64) (X : Rows 2048 64)
    (h0 : ∀ j : Fin 1024, X ⟨j.val, by omega⟩ = K0 j) (h1 : ∀ j : Fin 1024, X ⟨1024 + j.val, by omega⟩ = K1 j) (d : Fin 64) :
    (Real.exp (rmax u K0 - max (rmax u K0) (rmax u K1)) * (∑ j, Real.exp (rscore u K0 j - rmax u K0) * K0 j d)
        + ∑ j, Real.exp (rscore u K1 j - max (rmax u K0) (rmax u K1)) * K1 j d)
      / (Real.exp (rmax u K0 - max (rmax u K0) (rmax u K1)) * (∑ j, Real.exp (rscore u K0 j - rmax u K0))
        + ∑ j, Real.exp (rscore u K1 j - max (rmax u K0) (rmax u K1)))
      = rattn u X d := by
  haveI : NeZero (1024 + 1024) := ⟨by norm_num⟩
  have g0 : ∀ j : Fin 1024, X (Fin.castAdd 1024 j) = K0 j := fun j => by
    rw [← h0 j]; exact congrArg X (Fin.ext rfl)
  have g1 : ∀ j : Fin 1024, X (Fin.natAdd 1024 j) = K1 j := fun j => by
    rw [← h1 j]; exact congrArg X (Fin.ext rfl)
  exact online_append (n := 1024) u X d K0 K1 g0 g1

end Cert.Attn

end
-- ==== Proof.IdealFrame.Scan.lean ====
/-
  The output block at a row block's last key/value block, over a REAL input: the two folds of the running state (first
  block from the reset state, last block from what the first left) end with the softmax-weighted mean of the head's 2048
  rows under each of the block's 1024 query rows.
-/
import proofs.«430976_j25494925869080_3_alg».proof.Proof.IdealFrame.Pieces
import proofs.«430976_j25494925869080_3_alg».proof.Proof.IdealFrame.Blocks
import proofs.«430976_j25494925869080_3_alg».proof.Proof.StepsReal
import proofs.«430976_j25494925869080_3_alg».proof.Proof.Online

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The real blocks of a head -/

/-- Head `g` of a real input: its 2048 rows. -/
def headOf (xr : Cert.Attn.RArr) (g : Fin 32) : Cert.Attn.Rows 2048 64 :=
  xr (⟨g.val / 16, by have := g.isLt; omega⟩ : Fin 2) (⟨g.val % 16, by omega⟩ : Fin 16)

/-- Block `bi` (of two) of head `g`: rows `1024·bi + r`. -/
def blockOf (xr : Cert.Attn.RArr) (g : Fin 32) (bi : Fin 2) : Cert.Attn.Rows 1024 64 :=
  fun r e => headOf xr g (⟨bi.val * 1024 + r.val, by have := bi.isLt; have := r.isLt; omega⟩ : Fin 2048) e

/-- The query window's block at point `4·g + 2·qi + ki` holds the real block `qi` of head `g`. -/
theorem blk0_real (c : Dev nD) (xr : Cert.Attn.RArr)
    (hx : ∀ (b : Fin 2) (h : Fin 16) (s : Fin 2048) (d : Fin 64), (m ((c : Thread nD τ).loc main_arg0) : S2x16x2048x64.Idx → EReal) (ix4 b h s d) = ((xr b h s d : ℝ) : EReal))
    (t : Fin cfg0.N) (g : Fin 32) (qi ki : Fin 2) (ht : t.val = g.val * 4 + qi.val * 2 + ki.val) (r : Fin 1024) (e : Fin 64) :
    (iblk m c 0 t : S1x1024x64.Idx → EReal) (ix3 (0 : Fin 1) r e) = ((blockOf xr g qi r e : ℝ) : EReal) := by
  rw [iblk0_apply m c t g qi ki ht r e, V_v1_apply m c g _ e, hx]
  rfl

/-- The key/value window's block at point `4·g + 2·qi + ki` holds the real block `ki` of head `g`. -/
theorem blk1_real (c : Dev nD) (xr : Cert.Attn.RArr)
    (hx : ∀ (b : Fin 2) (h : Fin 16) (s : Fin 2048) (d : Fin 64), (m ((c : Thread nD τ).loc main_arg0) : S2x16x2048x64.Idx → EReal) (ix4 b h s d) = ((xr b h s d : ℝ) : EReal))
    (t : Fin cfg0.N) (g : Fin 32) (qi ki : Fin 2) (ht : t.val = g.val * 4 + qi.val * 2 + ki.val) (r : Fin 1024) (e : Fin 64) :
    (iblk m c 1 t : S1x1024x64.Idx → EReal) (ix3 (0 : Fin 1) r e) = ((blockOf xr g ki r e : ℝ) : EReal) := by
  rw [iblk1_apply m c t g qi ki ht r e, V_v1_apply m c g _ e, hx]
  rfl

/-! ## The running state after a row block's first key/value block -/

/-- After the even point `n = 4·g + 2·qi` the three scratch buffers hold, under query row `r` of block `qi`, the largest
    score against the head's first 1024 rows, the sum of the weights relative to it, and the weighted sum of those rows. -/
theorem state_even (c : Dev nD) (xr : Cert.Attn.RArr)
    (hx : ∀ (b : Fin 2) (h : Fin 16) (s : Fin 2048) (d : Fin 64), (m ((c : Thread nD τ).loc main_arg0) : S2x16x2048x64.Idx → EReal) (ix4 b h s d) = ((xr b h s d : ℝ) : EReal))
    (n : ℕ) (hn : n < cfg0.N) (g : Fin 32) (qi : Fin 2) (hn' : n = g.val * 4 + qi.val * 2) :
    (∀ r : Fin 1024, ((outsAt0 m c n hn).2.1 : S1024x1.Idx → EReal) (ix2 r (0 : Fin 1))
        = ((Cert.Attn.rmax (blockOf xr g qi r) (blockOf xr g 0) : ℝ) : EReal))
    ∧ (∀ r : Fin 1024, ((outsAt0 m c n hn).2.2.1 : S1024x1.Idx → EReal) (ix2 r (0 : Fin 1))
        = ((∑ j, Real.exp (Cert.Attn.rscore (blockOf xr g qi r) (blockOf xr g 0) j
              - Cert.Attn.rmax (blockOf xr g qi r) (blockOf xr g 0)) : ℝ) : EReal))
    ∧ (∀ (r : Fin 1024) (d : Fin 64), ((outsAt0 m c n hn).2.2.2 : S1024x64.Idx → EReal) (ix2 r d)
        = ((∑ j, Real.exp (Cert.Attn.rscore (blockOf xr g qi r) (blockOf xr g 0) j
              - Cert.Attn.rmax (blockOf xr g qi r) (blockOf xr g 0)) * blockOf xr g 0 j d : ℝ) : EReal)) := by
  have h0 : (⟨n, hn⟩ : Fin cfg0.N).val % 2 = 0 := by show n % 2 = 0; omega
  have e : outsAt0 m c n hn = ptA m c ⟨n, hn⟩ h0 := outsAt0_A m c ⟨n, hn⟩ h0
  have ht : (⟨n, hn⟩ : Fin cfg0.N).val = g.val * 4 + qi.val * 2 + (0 : Fin 2).val := by show n = _; simp [hn']
  have hq := blk0_real m c xr hx ⟨n, hn⟩ g qi 0 ht
  have hk := blk1_real m c xr hx ⟨n, hn⟩ g qi 0 ht
  rw [e]
  unfold ptA
  dsimp only
  refine ⟨fun r => ?_, fun r => ?_, fun r d => ?_⟩
  · rw [sout0_A_0_eq]
    exact Cert.KernelIdeal.Pay.first_max _ _ (blockOf xr g qi) (blockOf xr g 0) hq hk r
  · rw [sout0_A_1_eq]
    exact Cert.KernelIdeal.Pay.first_den _ _ (blockOf xr g qi) (blockOf xr g 0) hq hk r
  · rw [sout0_A_2_eq]
    exact Cert.KernelIdeal.Pay.first_num _ _ (blockOf xr g qi) (blockOf xr g 0) hq hk r d

/-! ## The output block -/

/-- At the odd point `t = 4·g + 2·qi + 1` the output window's buffer holds, at row `r` and coordinate `d`, the attention of
    row `1024·qi + r` of head `g`. -/
theorem out_block (c : Dev nD) (xr : Cert.Attn.RArr)
    (hx : ∀ (b : Fin 2) (h : Fin 16) (s : Fin 2048) (d : Fin 64), (m ((c : Thread nD τ).loc main_arg0) : S2x16x2048x64.Idx → EReal) (ix4 b h s d) = ((xr b h s d : ℝ) : EReal))
    (t : Fin cfg0.N) (g : Fin 32) (qi : Fin 2) (ht : t.val = g.val * 4 + qi.val * 2 + 1) (r : Fin 1024) (d : Fin 64) :
    ((outsAt0 m c t.val t.isLt).1 : S1x1024x64.Idx → EReal) (ix3 (0 : Fin 1) r d)
      = ((Cert.Attn.attn xr (⟨g.val / 16, by have := g.isLt; omega⟩ : Fin 2) (⟨g.val % 16, by omega⟩ : Fin 16)
            (⟨qi.val * 1024 + r.val, by have := qi.isLt; have := r.isLt; omega⟩ : Fin 2048) d : ℝ) : EReal) := by
  have h1 : t.val % 2 = 1 := by omega
  have hlt : t.val - 1 < cfg0.N := Nat.lt_of_le_of_lt (Nat.sub_le _ _) t.isLt
  have hn' : t.val - 1 = g.val * 4 + qi.val * 2 := by omega
  obtain ⟨hm0, hl0, ha0⟩ := state_even m c xr hx (t.val - 1) hlt g qi hn'
  have ht1 : t.val = g.val * 4 + qi.val * 2 + (1 : Fin 2).val := ht
  have hq := blk0_real m c xr hx t g qi 1 ht1
  have hk := blk1_real m c xr hx t g qi 1 ht1
  rw [outsAt0_B m c t h1]
  unfold ptB
  dsimp only
  rw [out0_B_2_eq]
  have hpos := Cert.Attn.online_den_pos (blockOf xr g qi r) (blockOf xr g 0) (blockOf xr g 1)
  refine (Cert.KernelIdeal.Pay.out_div _ _ r d _ _ (ne_of_gt hpos)
    (Cert.KernelIdeal.Pay.next_num _ _ (blockOf xr g qi) (blockOf xr g 1) hq hk _ _ _ _ hm0 ha0 r d)
    (Cert.KernelIdeal.Pay.next_den _ _ (blockOf xr g qi) (blockOf xr g 1) hq hk _ _ _ _ hm0 hl0 r)).trans ?_
  refine congrArg (fun x : ℝ => (x : EReal)) ?_
  refine (Cert.Attn.online_two (blockOf xr g qi r) (blockOf xr g 0) (blockOf xr g 1) (headOf xr g) (fun j => ?_) (fun j => ?_) d).trans ?_
  · show headOf xr g _ = fun e => headOf xr g _ e
    exact congrArg (headOf xr g) (Fin.ext (by simp))
  · show headOf xr g _ = fun e => headOf xr g _ e
    exact congrArg (headOf xr g) (Fin.ext (by simp))
  · rfl

end Cert.KernelIdeal.Hand

end
-- ==== Proof.IdealFrame.Final.lean ====
/-
  The kernel's result over a REAL input. The output window's blocks, written back at the odd points, tile the output array:
  block `(g, qi)` is written at point `4·g + 2·qi + 1`; so after the region the output array holds the attention of every
  row of every head, and the reshape after the region lays the 32 heads out as [2, 16, 2048, 64].
-/
import proofs.«430976_j25494925869080_3_alg».proof.Proof.IdealFrame.Scan
import proofs.«430976_j25494925869080_3_alg».proof.Proof.IdealFrame.Tail

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The attention read at equal coordinates. -/
private theorem attn_congr (xr : Cert.Attn.RArr) {b b' : Fin 2} {h h' : Fin 16} {s s' : Fin 2048} {d d' : Fin 64}
    (hb : b.val = b'.val) (hh : h.val = h'.val) (hs : s.val = s'.val) (hd : d.val = d'.val) :
    Cert.Attn.attn xr b h s d = Cert.Attn.attn xr b' h' s' d' := by
  obtain rfl := Fin.ext hb; obtain rfl := Fin.ext hh; obtain rfl := Fin.ext hs; obtain rfl := Fin.ext hd; rfl

/-- The attention of every row of every head as contents of the output array: at head `g`, row `s`, coordinate `d`
    the attention of row `s` of head `(g / 16, g % 16)`. -/
private def attnArr (xr : Cert.Attn.RArr) : S32x2048x64.Idx → EReal := fun i =>
  ((Cert.Attn.attn xr (⟨(i 0).val / 16, by have h : (i 0).val < 32 := (i 0).isLt; omega⟩ : Fin 2)
      (⟨(i 0).val % 16, by omega⟩ : Fin 16) (⟨(i 1).val, (i 1).isLt⟩ : Fin 2048) (⟨(i 2).val, (i 2).isLt⟩ : Fin 64) : ℝ) : EReal)

/-- Its entry at head `g`, row `s`, coordinate `d`. -/
private theorem attnArr_apply (xr : Cert.Attn.RArr) (g : Fin 32) (s : Fin 2048) (d : Fin 64) :
    attnArr xr (ix3 g s d)
      = ((Cert.Attn.attn xr (⟨g.val / 16, by have := g.isLt; omega⟩ : Fin 2) (⟨g.val % 16, by omega⟩ : Fin 16) s d : ℝ) : EReal) := rfl

/-- The output window's block indices at grid point `t`: head `t / 4`, row block `(t / 2) % 2`, column block 0. -/
private theorem idx_win2 : ∀ t : Fin cfg0.N, win0_2.index t (0 : Fin 3) = t.val / 4 ∧ win0_2.index t (1 : Fin 3) = t.val / 2 % 2 ∧ win0_2.index t (2 : Fin 3) = 0 :=
  (by decide +kernel : ∀ t : Fin grid0.N, win0_2.index t (0 : Fin 3) = t.val / 4 ∧ win0_2.index t (1 : Fin 3) = t.val / 2 % 2 ∧ win0_2.index t (2 : Fin 3) = 0)

/-- Where the output window's block at point `t` sits in the array: along each axis the coordinate is block index × block
    extent + the coordinate inside the block. -/
private theorem blk2_emb (t : Fin cfg0.N) (r : Fin 1024) (d : Fin 64) :
    (((cfg0.win 2).blk t).view.emb (ix3 (0 : Fin 1) r d) : S32x2048x64.Idx)
      = ix3 (⟨t.val / 4, by have := lt_of_lt_of_eq t.isLt N_0; omega⟩ : Fin 32)
          (⟨t.val / 2 % 2 * 1024 + r.val, by have := r.isLt; omega⟩ : Fin 2048) d := by
  obtain ⟨h0, h1, h2⟩ := idx_win2 t
  funext a; apply Fin.ext
  match a with
  | ⟨0, _⟩ => show win0_2.index t (0 : Fin 3) * 1 + 1 * 0 = t.val / 4; omega
  | ⟨1, _⟩ => show win0_2.index t (1 : Fin 3) * 1024 + 1 * r.val = t.val / 2 % 2 * 1024 + r.val; omega
  | ⟨2, _⟩ => show win0_2.index t (2 : Fin 3) * 64 + 1 * d.val = d.val; omega

/-- What an odd point writes back is its block of the attention array. -/
private theorem flushed2_eq (c : Dev nD) (xr : Cert.Attn.RArr)
    (hx : ∀ (b : Fin 2) (h : Fin 16) (s : Fin 2048) (d : Fin 64), (m ((c : Thread nD τ).loc main_arg0) : S2x16x2048x64.Idx → EReal) (ix4 b h s d) = ((xr b h s d : ℝ) : EReal))
    (t : Fin cfg0.N) (hf : (cfg0.win 2).flush t = true) :
    (dats m 0 c).flushed 2 t = ((cfg0.win 2).blk t).view.read (Elt Ideal) (attnArr xr) := by
  have hodd : t.val % 2 = 1 := (flush0_2 t).mp hf
  have hN : t.val < 128 := lt_of_lt_of_eq t.isLt N_0
  have hb := out_block m c xr hx t (⟨t.val / 4, by omega⟩ : Fin 32) (⟨t.val / 2 % 2, by omega⟩ : Fin 2) (by show t.val = t.val / 4 * 4 + t.val / 2 % 2 * 2 + 1; omega)
  show (cfg0.win 2).cut (grid0.coords t) ((dats m 0 c).after 2 t) = _
  rw [after0_2]
  generalize (outsAt0 m c t.val t.isLt).1 = X at hb ⊢
  funext j
  obtain ⟨r, d, rfl⟩ : ∃ (r : Fin 1024) (d : Fin 64), j = ix3 (0 : Fin 1) r d :=
    ⟨j 1, j 2, (eq_ix3 (n0 := 1) (n1 := 1024) (n2 := 64) j).trans
      (congrArg (fun a : Fin 1 => ix3 a (j 1) (j 2)) (Subsingleton.elim _ _))⟩
  show X (ix3 (0 : Fin 1) r d) = attnArr xr (((cfg0.win 2).blk t).view.emb (ix3 (0 : Fin 1) r d))
  rw [hb r d, blk2_emb t r d, attnArr_apply]

/-- An index of the array is in point `t`'s block iff each coordinate is in the block's range on its axis. -/
private theorem mem_blk2 (t : Fin cfg0.N) (i : S32x2048x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v2).slice (win0_2.rect t)).set ↔ _
  rw [View.set_slice_whole, Rect.mem_set_unit]
  exact Iff.rfl

/-- Every index of the array is in the block of an odd point: row `s` of head `g` in that of `4·g + 2·(s / 1024) + 1`. -/
private theorem cover2 (i : S32x2048x64.Idx) :
    ∃ t : Fin cfg0.N, (cfg0.win 2).flush t = true ∧ i ∈ ((cfg0.win 2).blk t).view.set := by
  have h0 : (i 0).val < 32 := (i 0).isLt
  have h1 : (i 1).val < 2048 := (i 1).isLt
  have h2 : (i 2).val < 64 := (i 2).isLt
  obtain ⟨n, hn⟩ : ∃ n : ℕ, n = (i 0).val * 4 + (i 1).val / 1024 * 2 + 1 := ⟨_, rfl⟩
  have hlt : n < cfg0.N := lt_of_lt_of_eq (by omega) N_0.symm
  obtain ⟨e0, e1, e2⟩ : win0_2.index ⟨n, hlt⟩ (0 : Fin 3) = n / 4 ∧ win0_2.index ⟨n, hlt⟩ (1 : Fin 3) = n / 2 % 2 ∧ win0_2.index ⟨n, hlt⟩ (2 : Fin 3) = 0 := idx_win2 ⟨n, hlt⟩
  refine ⟨⟨n, hlt⟩, (flush0_2 _).mpr (by show n % 2 = 1; omega), ?_⟩
  rw [mem_blk2]
  intro a
  match a with
  | ⟨0, _⟩ => show win0_2.index ⟨n, hlt⟩ (0 : Fin 3) * 1 ≤ (i 0).val ∧ (i 0).val < win0_2.index ⟨n, hlt⟩ (0 : Fin 3) * 1 + 1; omega
  | ⟨1, _⟩ => show win0_2.index ⟨n, hlt⟩ (1 : Fin 3) * 1024 ≤ (i 1).val ∧ (i 1).val < win0_2.index ⟨n, hlt⟩ (1 : Fin 3) * 1024 + 1024; omega
  | ⟨2, _⟩ => show win0_2.index ⟨n, hlt⟩ (2 : Fin 3) * 64 ≤ (i 2).val ∧ (i 2).val < win0_2.index ⟨n, hlt⟩ (2 : Fin 3) * 64 + 64; omega

/-- Heads split back into `[2, 16]`: the split array at `(b, h)` is the operand at head `16·b + h`, since both indices have
    row-major position `((16·b + h) · 2048 + s) · 64 + d`. -/
private theorem shapeCast_split_apply {α : Type} (x : S32x2048x64.Idx → α) (hc : S32x2048x64.ShapeCasts S2x16x2048x64)
    (b : Fin 2) (h : Fin 16) (s : Fin 2048) (d : Fin 64) :
    shapeCast S2x16x2048x64 x hc (ix4 b h s d)
      = x (ix3 (⟨b.val * 16 + h.val, by have := b.isLt; have := h.isLt; omega⟩ : Fin 32) s d) :=
  shapeCast_apply x hc _ _ (by
    rw [Shape.rowMajor_val_three, Shape.rowMajor_val_four]
    show ((b.val * 16 + h.val) * 2048 + s.val) * 64 + d.val = ((b.val * 16 + h.val) * 2048 + s.val) * 64 + d.val
    rfl)

/-- After the region the output array holds, at head `g`, row `s`, coordinate `d`, the attention of that row. -/
theorem arr_final (c : Dev nD) (xr : Cert.Attn.RArr)
    (hx : ∀ (b : Fin 2) (h : Fin 16) (s : Fin 2048) (d : Fin 64), (m ((c : Thread nD τ).loc main_arg0) : S2x16x2048x64.Idx → EReal) (ix4 b h s d) = ((xr b h s d : ℝ) : EReal))
    (g : Fin 32) (s : Fin 2048) (d : Fin 64) :
    ((dats m 0 c).arrAt 2 cfg0.N : S32x2048x64.Idx → EReal) (ix3 g s d)
      = ((Cert.Attn.attn xr (⟨g.val / 16, by have := g.isLt; omega⟩ : Fin 2) (⟨g.val % 16, by omega⟩ : Fin 16) s d : ℝ) : EReal) := by
  have h := (dats m 0 c).arrAt_eq_of_cover 2 (attnArr xr) (fun t hf => flushed2_eq m c xr hx t hf) cover2
  exact (congrFun h (ix3 g s d)).trans (attnArr_apply xr g s d)

/-- The result buffer after the reshape that follows the region: the attention at `(b, h, s, d)`. -/
theorem result_apply (c : Dev nD) (xr : Cert.Attn.RArr)
    (hx : ∀ (b : Fin 2) (h : Fin 16) (s : Fin 2048) (d : Fin 64), (m ((c : Thread nD τ).loc main_arg0) : S2x16x2048x64.Idx → EReal) (ix4 b h s d) = ((xr b h s d : ℝ) : EReal))
    (b : Fin 2) (h : Fin 16) (s : Fin 2048) (d : Fin 64) :
    (StableHlo.after hostOps1 (W2 m c) (Proc.devRef .tc main_v3) : S2x16x2048x64.Idx → EReal) (ix4 b h s d)
      = ((Cert.Attn.attn xr b h s d : ℝ) : EReal) := by
  have e1 : (StableHlo.after hostOps1 (W2 m c) (Proc.devRef .tc main_v3) : S2x16x2048x64.Idx → EReal)
      = shapeCast S2x16x2048x64 ((dats m 0 c).arrAt 2 cfg0.N : S32x2048x64.Idx → EReal) shapeCasts_S32x2048x64_S2x16x2048x64 := by
    show StableHlo.after hostOps1 (W2 m c) (Proc.devRef .tc main_v3) = _
    after_results
    rw [W2_v2]
    rfl
  have hb := b.isLt
  have hh := h.isLt
  rw [e1, shapeCast_split_apply, arr_final m c xr hx]
  exact congrArg _ (attn_congr xr (by show (b.val * 16 + h.val) / 16 = b.val; omega) (by show (b.val * 16 + h.val) % 16 = h.val; omega) rfl rfl)

end Cert.KernelIdeal.Hand

end
-- ==== Proof.RefValue.lean ====
/-
  The reference's result, read at an index, over a REAL input: scores by a contraction over the 64 coordinates, each row's
  maximum (a fold of `max` from `-∞`, met with `-∞` once more), the weights `exp (score − max)`, their sum from `0`,
  each weight divided by its row's sum, and the weighted rows summed — which is the softmax-weighted mean
  `Cert.Attn.attn`, because a common real divisor moves out of a finite sum.
-/
import proofs.«430976_j25494925869080_3_alg».proof.Proof.Gen.ReferenceIdeal.Read
import proofs.«430976_j25494925869080_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Attn

/-! ## Two facts about the extended reals -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The fold of `max` from `-∞` over the coercions of finitely many reals, at least one, is the coercion of their
    supremum: every term is below the supremum, and the supremum is one of the terms. -/
theorem fold_max_coe {n : ℕ} (hn : (Finset.univ : Finset (Fin n)).Nonempty) (f : Fin n → ℝ) :
    (Finset.univ : Finset (Fin n)).fold max (⊥ : EReal) (fun k => ((f k : ℝ) : EReal))
      = ((Finset.univ.sup' hn f : ℝ) : EReal) := by
  apply le_antisymm
  · exact (Finset.fold_max_le _).2 ⟨bot_le, fun k _ => EReal.coe_le_coe_iff.2 (Finset.le_sup' f (Finset.mem_univ k))⟩
  · obtain ⟨k, _, hk⟩ := Finset.exists_mem_eq_sup' hn f
    rw [hk]
    exact (Finset.le_fold_max _).2 (Or.inr ⟨k, Finset.mem_univ _, le_rfl⟩)

/-- The pattern `0xFF800000` is `-∞`. -/
theorem ofBits_neg_inf : FloatOps.ofBits (F := Ideal) .f32 0xFF800000#32 = (⊥ : EReal) := by
  show Ideal.ofBits .f32 0xFF800000#32 = ⊥
  simp [Ideal.ofBits, Ideal.ieee]

section
variable (xr : Cert.Attn.RArr) (x0 : (⟨S2x16x2048x64, .f32⟩ : BufTy).Contents (Elt Ideal))
  (hx : ∀ (b : Fin 2) (h : Fin 16) (s : Fin 2048) (d : Fin 64), x0 (ix4 b h s d) = ((xr b h s d : ℝ) : EReal))
  (b : Fin 2) (h : Fin 16) (q : Fin 2048)
include hx

/-- The score of query row `q` against row `j`: the contraction over the 64 coordinates of real entries is the real
    score. -/
theorem score_apply (j : Fin 2048) :
    val_main_v0 (F := Ideal) x0 (ix4 b h q j) = ((rscore (xr b h q) (xr b h) j : ℝ) : EReal) := by
  rw [val_main_v0_apply]
  have el : ∀ k : Fin 64, lidx_main_v0 (ix4 b h q j) k = ix4 b h q k := fun k => funext fun a => Fin.ext (by
    match a with | ⟨0, _⟩ => rfl | ⟨1, _⟩ => rfl | ⟨2, _⟩ => rfl | ⟨3, _⟩ => rfl)
  have er : ∀ k : Fin 64, ridx_main_v0 (ix4 b h q j) k = ix4 b h j k := fun k => funext fun a => Fin.ext (by
    match a with | ⟨0, _⟩ => rfl | ⟨1, _⟩ => rfl | ⟨2, _⟩ => rfl | ⟨3, _⟩ => rfl)
  unfold rscore
  rw [coe_sum]
  refine Finset.sum_congr rfl fun k _ => ?_
  rw [el k, er k, hx, hx, EReal.coe_mul]

omit hx in
/-- The row maximum, read at `(b, h, q)`: a reduction with a `max` body over the last axis from the constant `-∞` is the
    fold of `max` from `-∞` over that axis's 2048 coordinates (`max` commutes and associates). -/
theorem val_main_v1_apply :
    val_main_v1 (F := Ideal) x0 (ix3 b h q)
      = (Finset.univ : Finset (Fin 2048)).fold max (⊥ : EReal) (fun k => val_main_v0 (F := Ideal) x0 (ix4 b h q k)) := by
  unfold val_main_v1
  generalize val_main_v0 (F := Ideal) x0 = y0
  have hR : S2x16x2048x2048.Reduces [3] S2x16x2048 := by decide
  rw [Host.reduce_eq_fold_single (FloatOps.maximumf (F := Ideal) (φ := .f32)) y0 (val_main_cst (F := Ideal))
    reducesTo_S2x16x2048x2048_S2x16x2048_d3 hR h_S_, val_main_cst_apply, ofBits_neg_inf]
  have hf : (y0 ∘ hR.lift (ix3 b h q)) = fun k : Fin 2048 => y0 (ix4 b h q k) := funext fun k => congrArg y0 (funext fun a =>
    Fin.ext (by match a with | ⟨0, _⟩ => rfl | ⟨1, _⟩ => rfl | ⟨2, _⟩ => rfl | ⟨3, _⟩ => rfl))
  exact congrArg (fun f => Finset.fold max (⊥ : EReal) f (Finset.univ : Finset (Fin 2048))) hf

/-- The row's maximum met with `-∞`: the real maximum of the scores. -/
theorem rowmax_apply :
    val_main_v3 (F := Ideal) x0 (ix3 b h q) = ((rmax (xr b h q) (xr b h) : ℝ) : EReal) := by
  rw [val_main_v3_apply, val_main_v2_apply, val_main_cst_0_apply, ofBits_neg_inf, val_main_v1_apply]
  have hs : (fun k : Fin 2048 => val_main_v0 (F := Ideal) x0 (ix4 b h q k))
      = fun k => ((rscore (xr b h q) (xr b h) k : ℝ) : EReal) := funext fun k => score_apply xr x0 hx b h q k
  rw [hs, fold_max_coe Finset.univ_nonempty]
  show max (⊥ : EReal) _ = _
  rw [max_bot_left]
  rfl

/-- The weight of row `j`: the exponential of the score less the row maximum, both real. -/
theorem weight_apply (j : Fin 2048) :
    val_main_v7 (F := Ideal) x0 (ix4 b h q j)
      = ((Real.exp (rscore (xr b h q) (xr b h) j - rmax (xr b h q) (xr b h)) : ℝ) : EReal) := by
  rw [val_main_v7_apply, val_main_v6_apply, val_main_v5_apply, val_main_v4_apply]
  have ei : idx_main_v4 (idx_main_v5 (ix4 b h q j)) = ix3 b h q := funext fun a => Fin.ext (by
    match a with | ⟨0, _⟩ => rfl | ⟨1, _⟩ => rfl | ⟨2, _⟩ => rfl)
  rw [ei, score_apply xr x0 hx, rowmax_apply xr x0 hx, Ideal.hostUnary_exp_def, Ideal.subf_def, ← EReal.coe_sub,
    Ideal.exp_coe]

/-- The row's sum of weights from `0`: the real sum. -/
theorem rowsum_apply :
    val_main_v8 (F := Ideal) x0 (ix3 b h q)
      = ((∑ k, Real.exp (rscore (xr b h q) (xr b h) k - rmax (xr b h q) (xr b h)) : ℝ) : EReal) := by
  rw [val_main_v8_apply, val_main_cst_1_apply, Ideal.ofBits_def, Ideal.ofBits_zero_f32, zero_add, coe_sum]
  refine Finset.sum_congr rfl fun k _ => ?_
  have ei : idx_main_v8 (ix3 b h q) k = ix4 b h q k := funext fun a => Fin.ext (by
    match a with | ⟨0, _⟩ => rfl | ⟨1, _⟩ => rfl | ⟨2, _⟩ => rfl | ⟨3, _⟩ => rfl)
  rw [ei, weight_apply xr x0 hx]

omit hx in
/-- The real sum of the weights is positive. -/
theorem rowsum_pos : 0 < ∑ k, Real.exp (rscore (xr b h q) (xr b h) k - rmax (xr b h q) (xr b h)) :=
  Finset.sum_pos (fun k _ => Real.exp_pos _) Finset.univ_nonempty

/-- The weight of row `j` divided by the row's sum: division by a nonzero real is the product with its reciprocal. -/
theorem prob_apply (j : Fin 2048) :
    val_main_v11 (F := Ideal) x0 (ix4 b h q j)
      = ((Real.exp (rscore (xr b h q) (xr b h) j - rmax (xr b h q) (xr b h))
          * (1 / ∑ k, Real.exp (rscore (xr b h q) (xr b h) k - rmax (xr b h q) (xr b h))) : ℝ) : EReal) := by
  rw [val_main_v11_apply, val_main_v10_apply, val_main_v9_apply]
  have ei : idx_main_v9 (idx_main_v10 (ix4 b h q j)) = ix3 b h q := funext fun a => Fin.ext (by
    match a with | ⟨0, _⟩ => rfl | ⟨1, _⟩ => rfl | ⟨2, _⟩ => rfl)
  rw [ei, weight_apply xr x0 hx, rowsum_apply xr x0 hx, Ideal.hostDivf_def,
    Ideal.div_coe (rowsum_pos xr b h q).ne', ← EReal.coe_mul]

end

/-- On an input array holding the reals `xr`, the reference's result at `(b, h, q, d)` is the real
    softmax-weighted mean `attn xr b h q d`. -/
theorem ref_apply (xr : Cert.Attn.RArr) (x0 : (⟨S2x16x2048x64, .f32⟩ : BufTy).Contents (Elt Ideal))
    (hx : ∀ (b : Fin 2) (h : Fin 16) (s : Fin 2048) (d : Fin 64), x0 (ix4 b h s d) = ((xr b h s d : ℝ) : EReal))
    (b : Fin 2) (h : Fin 16) (q : Fin 2048) (d : Fin 64) :
    val_main_v12 (F := Ideal) x0 (ix4 b h q d) = ((Cert.Attn.attn xr b h q d : ℝ) : EReal) := by
  rw [val_main_v12_apply]
  unfold attn rattn
  rw [Finset.sum_div, coe_sum]
  refine Finset.sum_congr rfl fun k _ => ?_
  have el : lidx_main_v12 (ix4 b h q d) k = ix4 b h q k := funext fun a => Fin.ext (by
    match a with | ⟨0, _⟩ => rfl | ⟨1, _⟩ => rfl | ⟨2, _⟩ => rfl | ⟨3, _⟩ => rfl)
  have er : ridx_main_v12 (ix4 b h q d) k = ix4 b h k d := funext fun a => Fin.ext (by
    match a with | ⟨0, _⟩ => rfl | ⟨1, _⟩ => rfl | ⟨2, _⟩ => rfl | ⟨3, _⟩ => rfl)
  rw [el, er, prob_apply xr x0 hx, hx, ← EReal.coe_mul]
  congr 1
  ring

end Cert.ReferenceIdeal.RefValue

end
-- ==== Proof.Finite.lean ====
/-
  What the precondition says entry by entry: `|x| < +∞` at every index of the input, so every entry of the input array is a
  real number.
-/
import proofs.«430976_j25494925869080_3_alg».proof.Proof.Gen.Pre_finite_inputs
import proofs.«430976_j25494925869080_3_alg».proof.Proof.Spec
import Idealize.ShloMosaic.Lib.ValueIdx
import Idealize.ShloMosaic.Lib.ReduceAll
import Idealize.ShloMosaic.PureOps.Ideal.Laws

noncomputable section

namespace Cert.FiniteIn

open Idealize.ShloMosaic Idealize.ShloMosaic.ValueIdx

/-- An extended real `a` with `max a (-a) < ⊤` is a real number, the coercion of `a.toReal`: the bound fails at `⊤`
    (where `max ⊤ ⊥ = ⊤`) and at `⊥` (where `max ⊥ ⊤ = ⊤`). -/
private theorem eq_coe_toReal_of_abs_lt_top (a : EReal) (h : max a (-a) < ⊤) : a = ((a.toReal : ℝ) : EReal) := by
  rw [max_lt_iff] at h
  have h1 : a ≠ ⊤ := ne_of_lt h.1
  have h2 : a ≠ ⊥ := by
    intro hb
    rw [hb] at h
    simp at h
  exact (EReal.coe_toReal h1 h2).symm

/-- The result of the precondition has one index only. -/
private instance : Subsingleton Cert.Pre_finite_inputs.S_.Idx := ⟨fun a b => funext fun d => d.elim0⟩

/-- The f32 pattern `0x7F800000` is `+∞`. -/
private theorem ofBits_inf : Ideal.ofBits .f32 0x7F800000#32 = ⊤ := by simp [Ideal.ofBits, Ideal.ieee]

/-- An input array on which the precondition holds is the coercion of a real array. -/
theorem real_of_pre (x : FVec Ideal Cert.Pre_finite_inputs.S2x16x2048x64 .f32)
    (hpre : Cert.Pre_finite_inputs.fn (F := Ideal) x = fun _ => 1#1) :
    ∃ xr : Cert.Attn.RArr, ∀ (b : Fin 2) (h : Fin 16) (s : Fin 2048) (d : Fin 64), x (ix4 b h s d) = ((xr b h s d : ℝ) : EReal) := by
  have h0 := congrFun hpre ValueIdx.ix0
  dsimp only [Cert.Pre_finite_inputs.fn] at h0
  refine ⟨fun b h s d => (x (ix4 b h s d)).toReal, fun b h s d => ?_⟩
  have he := Host.reduce_andi_all _ _ _ _ _ h0 (ix4 b h s d)
  apply eq_coe_toReal_of_abs_lt_top
  have he' : Ideal.cmp .olt (max (x (ix4 b h s d)) (-(x (ix4 b h s d)))) (Ideal.ofBits .f32 0x7F800000#32) = 1#1 := he
  rw [ofBits_inf] at he'
  unfold Ideal.cmp at he'
  by_contra hn
  simp [hn] at he'

end Cert.FiniteIn

end
-- ==== Proof.lean ====
/-
  Self-attention `softmax(x xᵀ) x` over 32 heads of 2048 rows of 64 numbers: a flash-attention kernel (two key/value blocks
  of 1024 rows per row block, the running maximum, sum of weights and weighted sum of rows carried between them in scratch
  buffers and rescaled by `exp (old maximum − new maximum)`) against the plain reference (scores, row maximum,
  `exp (score − maximum)`, division by the row sum, weighted sum of rows).

  The three frames: the kernel programs run through the pipeline library's rule for @main as a list of segments (the two
  input windows read one array, whose share is split between them at the region's entry); the reference is its run with the
  result dropped. The idealization rewrote nothing, so `preserves` is trivial. The value claim needs the input to be REAL
  (the precondition says every entry is finite): on real numbers `exp (m₀ − M) · exp (s − m₀) = exp (s − M)`, a common factor
  moves through a finite sum, and the running denominator is positive, so the two-block recurrence and the one-pass softmax
  agree — both sides are the coercion of `Cert.Attn.attn`.
-/
import proofs.«430976_j25494925869080_3_alg».proof.Defs
import proofs.«430976_j25494925869080_3_alg».proof.Proof.Gen.Kernel
import proofs.«430976_j25494925869080_3_alg».proof.Proof.Gen.KernelIdeal
import proofs.«430976_j25494925869080_3_alg».proof.Proof.Gen.ReferenceIdeal
import proofs.«430976_j25494925869080_3_alg».proof.Proof.Gen.Pre_finite_inputs
import proofs.«430976_j25494925869080_3_alg».proof.Proof.Gen.ReferenceIdeal.Run
import proofs.«430976_j25494925869080_3_alg».proof.Proof.Gen.ReferenceIdeal.Read
import proofs.«430976_j25494925869080_3_alg».proof.Proof.BitsFrame.Launch
import proofs.«430976_j25494925869080_3_alg».proof.Proof.IdealFrame.Launch
import proofs.«430976_j25494925869080_3_alg».proof.Proof.IdealFrame.Final
import proofs.«430976_j25494925869080_3_alg».proof.Proof.RefValue
import proofs.«430976_j25494925869080_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs, faults nowhere and leaves its argument unchanged. -/
theorem frame_kernel : Cert.frame_Kernel := fun m ρ _ => Cert.Kernel.Hand.frame (F := Bits) m ρ

/-- So does its reading over the extended reals. -/
theorem frame_kernelIdeal : Cert.frame_KernelIdeal := fun m ρ _ => Cert.KernelIdeal.Hand.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the argument, under the precondition, both programs end with the attention of the real array
    the argument holds. -/
theorem algebraic : Cert.algebraic_KernelIdeal_ReferenceIdeal := by
  intro m ρ m' ρ' hpre hagree
  refine ⟨fun c => StableHlo.after Cert.KernelIdeal.Gen.hostOps1 (Cert.KernelIdeal.Hand.W2 m c) (Proc.devRef .tc Cert.KernelIdeal.main_v3),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c, Cert.ReferenceIdeal.Read.val_main_v12_eq]
  obtain ⟨xr, hx⟩ := Cert.FiniteIn.real_of_pre _ (hpre c)
  funext i
  obtain ⟨b, h, s, d, rfl⟩ : ∃ (b : Fin 2) (h : Fin 16) (s : Fin 2048) (d : Fin 64), i = ValueIdx.ix4 b h s d :=
    ⟨i 0, i 1, i 2, i 3, ValueIdx.eq_ix4 i⟩
  exact (Cert.ReferenceIdeal.RefValue.ref_apply xr _ hx b h s d).trans
    (Cert.KernelIdeal.Hand.result_apply m c xr hx b h s d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
